-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 10
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x128, .f32⟩
  | .hbm, ⟨7, _⟩ => ⟨S10000x128, .f32⟩
  | .hbm, ⟨8, _⟩ => ⟨S1x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S400x128, .f32⟩
  | .local _ .vmem, ⟨13, _⟩ => ⟨S400x128, .f32⟩
  | .local _ .vmem, ⟨14, _⟩ => ⟨S256x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S10000x128_S10000x128 : S10000x128.ShapeCasts S10000x128
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S10000x256 : Shape := ⟨2, ![10000, 256]⟩
abbrev S1x128 : Shape := ⟨2, ![1, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .f32⟩
  | .hbm, ⟨7, _⟩ => ⟨S10000x256, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_call2_cst : Ref sig .tc := ⟨.hbm, 25, rfl⟩
abbrev main_call2_v0 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KRegion0.lean ====
/-
  Region 0 of the kernel program as printed: the first graph-convolution layer as one pallas_call over 25 row
  panels of 400 nodes. At a parameter `V` (what the TensorCore's buffers hold when the region is entered):
  each window's block at a grid point, what the body leaves in the output window's staging buffer as a pure
  function of the input blocks (`out0_5`), the body's triple, the pipeline's proof data and the body obligation.
  Windows 1 and 2 read the SAME array (the features, once whole and once by row panel): the proof data holds
  that array at the two halves of its full share, one half per window.
-/
import proofs.«163987_g44830868636165_cont_8to1_c_628_3_alg».proof.Proof.Gen.Kernel.Launch
import proofs.«163987_g44830868636165_cont_8to1_c_628_3_alg».proof.Proof.Gen.Kernel.Skeleton
import proofs.«163987_g44830868636165_cont_8to1_c_628_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window
    fetched only at the first point keeps its block: its index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The adjacency panel, whole. -/
abbrev r0_a : Rect S400x10000 := Rect.unit (s := S400x10000) ![0, 0] S400x10000.size inb_S400x10000_S400x10000_0_0
/-- The features, whole. -/
abbrev r0_v : Rect S10000x128 := Rect.unit (s := S10000x128) ![0, 0] S10000x128.size inb_S10000x128_S10000x128_0_0
/-- A 400-row panel of features (the node's own rows; also the output block). -/
abbrev r0_b : Rect S400x128 := Rect.unit (s := S400x128) ![0, 0] S400x128.size inb_S400x128_S400x128_0_0
/-- The weight's first 128 rows. -/
abbrev r0_wlo : Rect S256x128 := Rect.unit (s := S256x128) ![0, 0] S128x128.size inb_S256x128_S128x128_0_0
/-- The weight's last 128 rows. -/
abbrev r0_whi : Rect S256x128 := Rect.unit (s := S256x128) ![128, 0] S128x128.size inb_S256x128_S128x128_128_0
/-- The bias row. -/
abbrev r0_bias : Rect S1x128 := Rect.unit (s := S1x128) ![0, 0] S1x128.size inb_S1x128_S1x128_0_0

/-! ## What the body leaves in the output window's buffer -/

/-- The output staging buffer after the body, from the input windows' blocks: its one store, of the layer's
    payload over what the body loaded. -/
def out0_5 (x0 : Vec F S400x10000 .f32) (x1 : Vec F S10000x128 .f32) (x2 : Vec F S400x128 .f32) (x3 : Vec F S256x128 .f32) (x4 : Vec F S1x128 .f32) : Vec F S400x128 .f32 :=
  View.canon [⟨r0_b, k0_pay1 (View.ld x0 r0_a) (View.ld x1 r0_v) (View.ld x2 r0_b) (View.ld x3 r0_wlo) (View.ld x3 r0_whi) (View.ld x4 r0_bias)⟩]

/-- The one store covers the buffer. -/
theorem cover0_5 (p0 : Vec F S400x128 .f32) (y : S400x128.Idx) :
    ∃ pc ∈ ([⟨r0_b, p0⟩] : List (View.Piece (Elt F) S400x128 .f32)), y ∈ pc.1.set :=
  View.cover_of_tiled [⟨r0_b, p0⟩] S400x128.size (by rfl) y

/-! ## The body's triple -/

set_option maxHeartbeats 4000000 in
/-- The kernel body on whole staging memrefs, the inputs' at read contents `xW` and the output's at anything, runs
    to the continuation holding the inputs' as they were and the output's at `out0_5` of the inputs'. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S400x128 .f32) (harg6 : arg6.IsWhole)
    (x0 : Vec F S400x10000 .f32) (x1 : Vec F S10000x128 .f32) (x2 : Vec F S400x128 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__conv_body i arg1 harg1 arg2 harg2 arg3 harg3 arg4 harg4 arg5 harg5 arg6 harg6) K := by
  simp only [cc0__conv_body_eq_skeleton]; unfold cc0__conv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t`
    each input's buffer at its block and the output's at `out0_5` of the input blocks; the invariant the scoped
    rest and the generator register, untouched; nothing owed. The features' array is read by windows 1 and 2:
    each holds it at one half of the full share; every other input array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Conv

end
-- ==== Proof.KArrays0.lean ====
/-
  Region 0's arrays at its boundaries. The TensorCore's unscoped buffers are the buffers behind the region's
  windows and the rest; behind the six windows stand FIVE buffers, the features' array serving two windows.
  Entering, that array's full share is dealt to the two windows as its two halves; leaving, the halves are
  joined again, the inputs' arrays are as they were found and the output's array holds what the write-backs left.
-/
import proofs.«163987_g44830868636165_cont_8to1_c_628_3_alg».proof.Proof.KRegion0

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five buffers behind region 0's windows, one by one. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg1) ↦{fullShare} X main_arg1) ∗ (((c : Thread nD τ).loc main_arg0) ↦{fullShare} X main_arg0)
          ∗ (((c : Thread nD τ).loc main_arg2) ↦{fullShare} X main_arg2) ∗ (((c : Thread nD τ).loc main_v0) ↦{fullShare} X main_v0)
          ∗ (((c : Thread nD τ).loc main_v1) ↦{fullShare} X main_v1)) := by
  unfold Pipeline.arrBufs
  exact BI.bigSep_eq_bigSepL_of_eq [main_arg1, main_arg0, main_arg2, main_v0, main_v1] (by decide) (by decide) _

/-- The proof data's arrays, window by window, each at its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_arg2) ↦{fullShare} G 3)
          ∗ (((c : Thread nD τ).loc main_v0) ↦{fullShare} G 4) ∗ (((c : Thread nD τ).loc main_v1) ↦{fullShare} G 5)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ]
  rfl

/-- ENTRY: the core's unscoped buffers at `V` are the proof data's arrays at their entry contents — the
    features' array dealt to windows 1 and 2 by halves — and the unscoped buffers no window reads. -/
theorem entry0 (c : Dev nD) :
    (unscopedBufs c (V c) : sProp 𝕄) ⊢ iprop((dat0 V c).arrays ((dat0 V c).arrAt · 0) ∗ Pipeline.unscopedRest spec0 c (V c)) := by
  rw [show (unscopedBufs c (V c) : sProp 𝕄) = iprop(Pipeline.arrBufs spec0 c (V c) ∗ Pipeline.unscopedRest spec0 c (V c))
      from Pipeline.unscopedBufs_split₀ cfgs 0 winFacts₀0.arr_unscoped c (V c), arrBufs0_eq, arrays0_eq]
  iintro ⟨⟨H1, H0, H2, Hv0, Hv1⟩, Hrest⟩
  ihave H0' := (pointsTo_share (PosShare.mem_left_op_right fullShare)).1 $$ H0
  icases H0' with ⟨H0l, H0r⟩
  isplitr [Hrest]
  · isplitl [H1]; · iexact H1
    isplitl [H0l]; · iexact H0l
    isplitl [H0r]; · iexact H0r
    isplitl [H2]; · iexact H2
    isplitl [Hv0]; · iexact Hv0
    iexact Hv1
  iexact Hrest

/-- EXIT: the arrays after the last point — every input's as found, the output's at what the write-backs left —
    and the buffers no window reads make the core's unscoped buffers at any `V'` that holds the output's array
    at those contents and every other buffer at what `V` held. -/
theorem exit0 (c : Dev nD) (X : (b : Ref sig .tc) → Buf (Elt F) ((c : Thread nD τ).loc b))
    (hout : X main_v1 = (dat0 V c).arrAt 5 cfg0.N) (hrest : ∀ b : Ref sig .tc, b ≠ main_v1 → X b = V c b) :
    iprop((dat0 V c).arrays ((dat0 V c).arrAt · cfg0.N) ∗ Pipeline.unscopedRest spec0 c (V c)) ⊢ (unscopedBufs c X : sProp 𝕄) := by
  rw [show (unscopedBufs c X : sProp 𝕄) = iprop(Pipeline.arrBufs spec0 c X ∗ Pipeline.unscopedRest spec0 c X)
      from Pipeline.unscopedBufs_split₀ cfgs 0 winFacts₀0.arr_unscoped c X, arrBufs0_eq, arrays0_eq,
    unscopedRest0_eq c (V c), unscopedRest0_eq c X,
    (dat0 V c).arrAt_in 0 rfl, (dat0 V c).arrAt_in 1 rfl, (dat0 V c).arrAt_in 2 rfl, (dat0 V c).arrAt_in 3 rfl, (dat0 V c).arrAt_in 4 rfl,
    hout, hrest main_arg1 (by decide), hrest main_arg0 (by decide), hrest main_arg2 (by decide), hrest main_v0 (by decide),
    hrest main_arg3 (by decide), hrest main_arg4 (by decide), hrest main_arg5 (by decide), hrest main_v2 (by decide), hrest main_v3 (by decide)]
  iintro ⟨⟨H1, H0l, H0r, H2, Hv0, Hv1⟩, Hrest⟩
  ihave H0 := (pointsTo_share (PosShare.mem_left_op_right fullShare)).2 $$ [H0l H0r]
  · isplitl [H0l]; · iexact H0l
    iexact H0r
  isplitr [Hrest]
  · isplitl [H1]; · iexact H1
    isplitl [H0]; · iexact H0
    isplitl [H2]; · iexact H2
    isplitl [Hv0]; · iexact Hv0
    iexact Hv1
  iexact Hrest

end Cert.Kernel.Conv

end
-- ==== Proof.KRegion1.lean ====
/-
  Region 1 of the kernel program as printed: the second graph-convolution layer (with its residual) as one pallas_call over 25 row
  panels of 400 nodes. At a parameter `V` (what the TensorCore's buffers hold when the region is entered):
  each window's block at a grid point, what the body leaves in the output window's staging buffer as a pure
  function of the input blocks (`out1_5`), the body's triple, the pipeline's proof data and the body obligation.
  Windows 1 and 2 read the SAME array (the first layer's output, once whole and once by row panel): the proof data holds
  that array at the two halves of its full share, one half per window.
-/
import proofs.«163987_g44830868636165_cont_8to1_c_628_3_alg».proof.Proof.Gen.Kernel.Launch
import proofs.«163987_g44830868636165_cont_8to1_c_628_3_alg».proof.Proof.Gen.Kernel.Skeleton
import proofs.«163987_g44830868636165_cont_8to1_c_628_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window
    fetched only at the first point keeps its block: its index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The adjacency panel, whole. -/
abbrev r1_a : Rect S400x10000 := Rect.unit (s := S400x10000) ![0, 0] S400x10000.size inb_S400x10000_S400x10000_0_0
/-- The features, whole. -/
abbrev r1_v : Rect S10000x128 := Rect.unit (s := S10000x128) ![0, 0] S10000x128.size inb_S10000x128_S10000x128_0_0
/-- A 400-row panel of features (the node's own rows; also the output block). -/
abbrev r1_b : Rect S400x128 := Rect.unit (s := S400x128) ![0, 0] S400x128.size inb_S400x128_S400x128_0_0
/-- The weight's first 128 rows. -/
abbrev r1_wlo : Rect S256x128 := Rect.unit (s := S256x128) ![0, 0] S128x128.size inb_S256x128_S128x128_0_0
/-- The weight's last 128 rows. -/
abbrev r1_whi : Rect S256x128 := Rect.unit (s := S256x128) ![128, 0] S128x128.size inb_S256x128_S128x128_128_0
/-- The bias row. -/
abbrev r1_bias : Rect S1x128 := Rect.unit (s := S1x128) ![0, 0] S1x128.size inb_S1x128_S1x128_0_0

/-! ## What the body leaves in the output window's buffer -/

/-- The output staging buffer after the body, from the input windows' blocks: its one store, of the layer's
    payload over what the body loaded. -/
def out1_5 (x0 : Vec F S400x10000 .f32) (x1 : Vec F S10000x128 .f32) (x2 : Vec F S400x128 .f32) (x3 : Vec F S256x128 .f32) (x4 : Vec F S1x128 .f32) : Vec F S400x128 .f32 :=
  View.canon [⟨r1_b, k1_pay1 (View.ld x0 r1_a) (View.ld x1 r1_v) (View.ld x2 r1_b) (View.ld x3 r1_wlo) (View.ld x3 r1_whi) (View.ld x4 r1_bias)⟩]

/-- The one store covers the buffer. -/
theorem cover1_5 (p0 : Vec F S400x128 .f32) (y : S400x128.Idx) :
    ∃ pc ∈ ([⟨r1_b, p0⟩] : List (View.Piece (Elt F) S400x128 .f32)), y ∈ pc.1.set :=
  View.cover_of_tiled [⟨r1_b, p0⟩] S400x128.size (by rfl) y

/-! ## The body's triple -/

set_option maxHeartbeats 4000000 in
/-- The kernel body on whole staging memrefs, the inputs' at read contents `xW` and the output's at anything, runs
    to the continuation holding the inputs' as they were and the output's at `out1_5` of the inputs'. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S400x128 .f32) (harg6 : arg6.IsWhole)
    (x0 : Vec F S400x10000 .f32) (x1 : Vec F S10000x128 .f32) (x2 : Vec F S400x128 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__conv_body i arg1 harg1 arg2 harg2 arg3 harg3 arg4 harg4 arg5 harg5 arg6 harg6) K := by
  simp only [cc1__conv_body_eq_skeleton]; unfold cc1__conv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant the scoped
    rest and the generator register, untouched; nothing owed. The features' array is read by windows 1 and 2:
    each holds it at one half of the full share; every other input array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Conv

end
-- ==== Proof.KArrays1.lean ====
/-
  Region 1's arrays at its boundaries. The TensorCore's unscoped buffers are the buffers behind the region's
  windows and the rest; behind the six windows stand FIVE buffers, the first layer's output array serving two windows.
  Entering, that array's full share is dealt to the two windows as its two halves; leaving, the halves are
  joined again, the inputs' arrays are as they were found and the output's array holds what the write-backs left.
-/
import proofs.«163987_g44830868636165_cont_8to1_c_628_3_alg».proof.Proof.KRegion1

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five buffers behind region 1's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_v1) ↦{fullShare} X main_v1)
          ∗ (((c : Thread nD τ).loc main_arg4) ↦{fullShare} X main_arg4) ∗ (((c : Thread nD τ).loc main_v2) ↦{fullShare} X main_v2)
          ∗ (((c : Thread nD τ).loc main_v3) ↦{fullShare} X main_v3)) := by
  unfold Pipeline.arrBufs
  exact BI.bigSep_eq_bigSepL_of_eq [main_arg1, main_v1, main_arg4, main_v2, main_v3] (by decide) (by decide) _

/-- The proof data's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v1) ↦{fullShare.left} G 1)
          ∗ (((c : Thread nD τ).loc main_v1) ↦{fullShare.right} G 2) ∗ (((c : Thread nD τ).loc main_arg4) ↦{fullShare} G 3)
          ∗ (((c : Thread nD τ).loc main_v2) ↦{fullShare} G 4) ∗ (((c : Thread nD τ).loc main_v3) ↦{fullShare} G 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rfl

/-- ENTRY: the core's unscoped buffers at `V` are the proof data's arrays at their entry contents — the
    features' array dealt to windows 1 and 2 by halves — and the unscoped buffers no window reads. -/
theorem entry1 (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c))
      from Pipeline.unscopedBufs_split₀ cfgs 1 winFacts₀1.arr_unscoped c (V c), arrBufs1_eq, arrays1_eq]
  iintro ⟨⟨H1, H0, H2, Hv0, Hv1⟩, Hrest⟩
  ihave H0' := (pointsTo_share (PosShare.mem_left_op_right fullShare)).1 $$ H0
  icases H0' with ⟨H0l, H0r⟩
  isplitr [Hrest]
  · isplitl [H1]; · iexact H1
    isplitl [H0l]; · iexact H0l
    isplitl [H0r]; · iexact H0r
    isplitl [H2]; · iexact H2
    isplitl [Hv0]; · iexact Hv0
    iexact Hv1
  iexact Hrest

/-- EXIT: the arrays after the last point — every input's as found, the output's at what the write-backs left —
    and the buffers no window reads make the core's unscoped buffers at any `V'` that holds the output's array
    at those contents and every other buffer at what `V` held. -/
theorem exit1 (c : Dev nD) (X : (b : Ref sig .tc) → Buf (Elt F) ((c : Thread nD τ).loc b))
    (hout : X main_v3 = (dat1 V c).arrAt 5 cfg1.N) (hrest : ∀ b : Ref sig .tc, b ≠ main_v3 → X b = V c b) :
    iprop((dat1 V c).arrays ((dat1 V c).arrAt · cfg1.N) ∗ Pipeline.unscopedRest spec1 c (V c)) ⊢ (unscopedBufs c X : sProp 𝕄) := by
  rw [show (unscopedBufs c X : sProp 𝕄) = iprop(Pipeline.arrBufs spec1 c X ∗ Pipeline.unscopedRest spec1 c X)
      from Pipeline.unscopedBufs_split₀ cfgs 1 winFacts₀1.arr_unscoped c X, arrBufs1_eq, arrays1_eq,
    unscopedRest1_eq c (V c), unscopedRest1_eq c X,
    (dat1 V c).arrAt_in 0 rfl, (dat1 V c).arrAt_in 1 rfl, (dat1 V c).arrAt_in 2 rfl, (dat1 V c).arrAt_in 3 rfl, (dat1 V c).arrAt_in 4 rfl,
    hout, hrest main_arg1 (by decide), hrest main_v1 (by decide), hrest main_arg4 (by decide), hrest main_v2 (by decide),
    hrest main_arg3 (by decide), hrest main_arg2 (by decide), hrest main_arg5 (by decide), hrest main_v0 (by decide), hrest main_arg0 (by decide)]
  iintro ⟨⟨H1, H0l, H0r, H2, Hv0, Hv1⟩, Hrest⟩
  ihave H0 := (pointsTo_share (PosShare.mem_left_op_right fullShare)).2 $$ [H0l H0r]
  · isplitl [H0l]; · iexact H0l
    iexact H0r
  isplitr [Hrest]
  · isplitl [H1]; · iexact H1
    isplitl [H0]; · iexact H0
    isplitl [H2]; · iexact H2
    isplitl [Hv0]; · iexact Hv0
    iexact Hv1
  iexact Hrest

end Cert.Kernel.Conv

end
-- ==== Proof.KRun.lean ====
/-
  The run of the kernel program as printed's @main: a reshape of the first bias, the first layer's region, a
  reshape of the second bias, the second layer's region. The TensorCore's unscoped buffers are followed through
  the four items as a fold from the launch memory: a host stretch applies its operations, a region replaces its
  output array by what its write-backs leave and changes nothing else. Each region is entered by dealing its
  windows' arrays out of the unscoped buffers (the array two windows share by halves) and left by putting them
  back. Every weakly fair execution terminates, nothing faulting, with every unscoped buffer at the last
  boundary's contents (`run_all`); the arguments are never written, so they end as launched (`frame`).
-/
import proofs.«163987_g44830868636165_cont_8to1_c_628_3_alg».proof.Proof.KArrays0
import proofs.«163987_g44830868636165_cont_8to1_c_628_3_alg».proof.Proof.KArrays1
import proofs.«163987_g44830868636165_cont_8to1_c_628_3_alg».proof.Proof.Gen.Kernel.Regions

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first bias's reshape (region 0's entry). -/
abbrev W1 : Dev nD → Valuation τ sig (Elt F) := fun c => StableHlo.after hostOps0 (W0 m c)
/-- The same read at the TensorCore's references. -/
abbrev B1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) main_v1 ((dat0 (B1 m) c).arrAt 5 cfg0.N)
abbrev B2 : (c : Dev nD) → (b : Ref sig .tc) → Buf (Elt F) ((c : Thread nD τ).loc b) := fun c b => W2 m c b
theorem W2_out (c : Dev nD) : B2 m c main_v1 = (dat0 (B1 m) c).arrAt 5 cfg0.N := by
  show W2 m c main_v1 = _; unfold W2; exact Function.update_self ..
theorem W2_of_ne (c : Dev nD) (b : Ref sig .tc) (hb : b ≠ main_v1) : B2 m c b = B1 m c b := by
  show W2 m c b = W1 m c b; unfold W2
  exact Function.update_of_ne (StableHlo.devRef_ne_of_ne hb : (Proc.devRef .tc b : DevRef τ sig) ≠ Proc.devRef .tc main_v1) _ _
/-- After the second bias's reshape (region 1's entry). -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b
/-- At region 1's exit. -/
def W4 (c : Dev nD) : Valuation τ sig (Elt F) :=
  Function.update (W3 m c) main_v3 ((dat1 (B3 m) c).arrAt 5 cfg1.N)
abbrev B4 : (c : Dev nD) → (b : Ref sig .tc) → Buf (Elt F) ((c : Thread nD τ).loc b) := fun c b => W4 m c b
theorem W4_out (c : Dev nD) : B4 m c main_v3 = (dat1 (B3 m) c).arrAt 5 cfg1.N := by
  show W4 m c main_v3 = _; unfold W4; exact Function.update_self ..
theorem W4_of_ne (c : Dev nD) (b : Ref sig .tc) (hb : b ≠ main_v3) : B4 m c b = B3 m c b := by
  show W4 m c b = W3 m c b; unfold W4
  exact Function.update_of_ne (StableHlo.devRef_ne_of_ne hb : (Proc.devRef .tc b : DevRef τ sig) ≠ Proc.devRef .tc main_v3) _ _

/-- A buffer neither reshape writes and neither region's output reaches the end as launched. -/
theorem W4_kept (c : Dev nD) (b : Ref sig .tc) (h0 : b ∉ hostOps0_W) (h1 : b ≠ main_v1) (h2 : b ∉ hostOps1_W) (h3 : b ≠ main_v3) :
    B4 m c b = m ((c : Thread nD τ).loc b) :=
  (W4_of_ne m c b h3).trans <| (StableHlo.after_of_writes_sub hostOps1 _ hostOps1_writes h2).trans <|
    (W2_of_ne m c b h1).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := entry0 (B1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (B1 m) c (B2 m c) (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := entry1 (B3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (B3 m) c (B4 m c) (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the items. -/
theorem main_run (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide))⟩)
    (run_all m ρ)

end Cert.Kernel.Conv

end
-- ==== Proof.Region0.lean ====
/-
  Region 0 of the idealized kernel program: the first graph-convolution layer as one pallas_call over 25 row
  panels of 400 nodes. At a parameter `V` (what the TensorCore's buffers hold when the region is entered):
  each window's block at a grid point, what the body leaves in the output window's staging buffer as a pure
  function of the input blocks (`out0_5`), the body's triple, the pipeline's proof data and the body obligation.
  Windows 1 and 2 read the SAME array (the features, once whole and once by row panel): the proof data holds
  that array at the two halves of its full share, one half per window.
-/
import proofs.«163987_g44830868636165_cont_8to1_c_628_3_alg».proof.Proof.Gen.KernelIdeal.Launch
import proofs.«163987_g44830868636165_cont_8to1_c_628_3_alg».proof.Proof.Gen.KernelIdeal.Skeleton
import proofs.«163987_g44830868636165_cont_8to1_c_628_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window
    fetched only at the first point keeps its block: its index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The adjacency panel, whole. -/
abbrev r0_a : Rect S400x10000 := Rect.unit (s := S400x10000) ![0, 0] S400x10000.size inb_S400x10000_S400x10000_0_0
/-- The features, whole. -/
abbrev r0_v : Rect S10000x128 := Rect.unit (s := S10000x128) ![0, 0] S10000x128.size inb_S10000x128_S10000x128_0_0
/-- A 400-row panel of features (the node's own rows; also the output block). -/
abbrev r0_b : Rect S400x128 := Rect.unit (s := S400x128) ![0, 0] S400x128.size inb_S400x128_S400x128_0_0
/-- The weight's first 128 rows. -/
abbrev r0_wlo : Rect S256x128 := Rect.unit (s := S256x128) ![0, 0] S128x128.size inb_S256x128_S128x128_0_0
/-- The weight's last 128 rows. -/
abbrev r0_whi : Rect S256x128 := Rect.unit (s := S256x128) ![128, 0] S128x128.size inb_S256x128_S128x128_128_0
/-- The bias row. -/
abbrev r0_bias : Rect S1x128 := Rect.unit (s := S1x128) ![0, 0] S1x128.size inb_S1x128_S1x128_0_0

/-! ## What the body leaves in the output window's buffer -/

/-- The output staging buffer after the body, from the input windows' blocks: its one store, of the layer's
    payload over what the body loaded. -/
def out0_5 (x0 : Vec F S400x10000 .f32) (x1 : Vec F S10000x128 .f32) (x2 : Vec F S400x128 .f32) (x3 : Vec F S256x128 .f32) (x4 : Vec F S1x128 .f32) : Vec F S400x128 .f32 :=
  View.canon [⟨r0_b, k0_pay1 (View.ld x0 r0_a) (View.ld x1 r0_v) (View.ld x2 r0_b) (View.ld x3 r0_wlo) (View.ld x3 r0_whi) (View.ld x4 r0_bias)⟩]

/-- The one store covers the buffer. -/
theorem cover0_5 (p0 : Vec F S400x128 .f32) (y : S400x128.Idx) :
    ∃ pc ∈ ([⟨r0_b, p0⟩] : List (View.Piece (Elt F) S400x128 .f32)), y ∈ pc.1.set :=
  View.cover_of_tiled [⟨r0_b, p0⟩] S400x128.size (by rfl) y

/-! ## The body's triple -/

set_option maxHeartbeats 4000000 in
/-- The kernel body on whole staging memrefs, the inputs' at read contents `xW` and the output's at anything, runs
    to the continuation holding the inputs' as they were and the output's at `out0_5` of the inputs'. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S400x128 .f32) (harg6 : arg6.IsWhole)
    (x0 : Vec F S400x10000 .f32) (x1 : Vec F S10000x128 .f32) (x2 : Vec F S400x128 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__conv_body i arg1 harg1 arg2 harg2 arg3 harg3 arg4 harg4 arg5 harg5 arg6 harg6) K := by
  simp only [cc0__conv_body_eq_skeleton]; unfold cc0__conv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t`
    each input's buffer at its block and the output's at `out0_5` of the input blocks; the invariant the scoped
    rest and the generator register, untouched; nothing owed. The features' array is read by windows 1 and 2:
    each holds it at one half of the full share; every other input array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Conv

end
-- ==== Proof.Arrays0.lean ====
/-
  Region 0's arrays at its boundaries. The TensorCore's unscoped buffers are the buffers behind the region's
  windows and the rest; behind the six windows stand FIVE buffers, the features' array serving two windows.
  Entering, that array's full share is dealt to the two windows as its two halves; leaving, the halves are
  joined again, the inputs' arrays are as they were found and the output's array holds what the write-backs left.
-/
import proofs.«163987_g44830868636165_cont_8to1_c_628_3_alg».proof.Proof.Region0

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five buffers behind region 0's windows, one by one. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg1) ↦{fullShare} X main_arg1) ∗ (((c : Thread nD τ).loc main_arg0) ↦{fullShare} X main_arg0)
          ∗ (((c : Thread nD τ).loc main_arg2) ↦{fullShare} X main_arg2) ∗ (((c : Thread nD τ).loc main_v0) ↦{fullShare} X main_v0)
          ∗ (((c : Thread nD τ).loc main_v1) ↦{fullShare} X main_v1)) := by
  unfold Pipeline.arrBufs
  exact BI.bigSep_eq_bigSepL_of_eq [main_arg1, main_arg0, main_arg2, main_v0, main_v1] (by decide) (by decide) _

/-- The proof data's arrays, window by window, each at its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_arg2) ↦{fullShare} G 3)
          ∗ (((c : Thread nD τ).loc main_v0) ↦{fullShare} G 4) ∗ (((c : Thread nD τ).loc main_v1) ↦{fullShare} G 5)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ]
  rfl

/-- ENTRY: the core's unscoped buffers at `V` are the proof data's arrays at their entry contents — the
    features' array dealt to windows 1 and 2 by halves — and the unscoped buffers no window reads. -/
theorem entry0 (c : Dev nD) :
    (unscopedBufs c (V c) : sProp 𝕄) ⊢ iprop((dat0 V c).arrays ((dat0 V c).arrAt · 0) ∗ Pipeline.unscopedRest spec0 c (V c)) := by
  rw [show (unscopedBufs c (V c) : sProp 𝕄) = iprop(Pipeline.arrBufs spec0 c (V c) ∗ Pipeline.unscopedRest spec0 c (V c))
      from Pipeline.unscopedBufs_split₀ cfgs 0 winFacts₀0.arr_unscoped c (V c), arrBufs0_eq, arrays0_eq]
  iintro ⟨⟨H1, H0, H2, Hv0, Hv1⟩, Hrest⟩
  ihave H0' := (pointsTo_share (PosShare.mem_left_op_right fullShare)).1 $$ H0
  icases H0' with ⟨H0l, H0r⟩
  isplitr [Hrest]
  · isplitl [H1]; · iexact H1
    isplitl [H0l]; · iexact H0l
    isplitl [H0r]; · iexact H0r
    isplitl [H2]; · iexact H2
    isplitl [Hv0]; · iexact Hv0
    iexact Hv1
  iexact Hrest

/-- EXIT: the arrays after the last point — every input's as found, the output's at what the write-backs left —
    and the buffers no window reads make the core's unscoped buffers at any `V'` that holds the output's array
    at those contents and every other buffer at what `V` held. -/
theorem exit0 (c : Dev nD) (X : (b : Ref sig .tc) → Buf (Elt F) ((c : Thread nD τ).loc b))
    (hout : X main_v1 = (dat0 V c).arrAt 5 cfg0.N) (hrest : ∀ b : Ref sig .tc, b ≠ main_v1 → X b = V c b) :
    iprop((dat0 V c).arrays ((dat0 V c).arrAt · cfg0.N) ∗ Pipeline.unscopedRest spec0 c (V c)) ⊢ (unscopedBufs c X : sProp 𝕄) := by
  rw [show (unscopedBufs c X : sProp 𝕄) = iprop(Pipeline.arrBufs spec0 c X ∗ Pipeline.unscopedRest spec0 c X)
      from Pipeline.unscopedBufs_split₀ cfgs 0 winFacts₀0.arr_unscoped c X, arrBufs0_eq, arrays0_eq,
    unscopedRest0_eq c (V c), unscopedRest0_eq c X,
    (dat0 V c).arrAt_in 0 rfl, (dat0 V c).arrAt_in 1 rfl, (dat0 V c).arrAt_in 2 rfl, (dat0 V c).arrAt_in 3 rfl, (dat0 V c).arrAt_in 4 rfl,
    hout, hrest main_arg1 (by decide), hrest main_arg0 (by decide), hrest main_arg2 (by decide), hrest main_v0 (by decide),
    hrest main_arg3 (by decide), hrest main_arg4 (by decide), hrest main_arg5 (by decide), hrest main_v2 (by decide), hrest main_v3 (by decide)]
  iintro ⟨⟨H1, H0l, H0r, H2, Hv0, Hv1⟩, Hrest⟩
  ihave H0 := (pointsTo_share (PosShare.mem_left_op_right fullShare)).2 $$ [H0l H0r]
  · isplitl [H0l]; · iexact H0l
    iexact H0r
  isplitr [Hrest]
  · isplitl [H1]; · iexact H1
    isplitl [H0]; · iexact H0
    isplitl [H2]; · iexact H2
    isplitl [Hv0]; · iexact Hv0
    iexact Hv1
  iexact Hrest

end Cert.KernelIdeal.Conv

end
-- ==== Proof.Region1.lean ====
/-
  Region 1 of the idealized kernel program: the second graph-convolution layer (with its residual) as one pallas_call over 25 row
  panels of 400 nodes. At a parameter `V` (what the TensorCore's buffers hold when the region is entered):
  each window's block at a grid point, what the body leaves in the output window's staging buffer as a pure
  function of the input blocks (`out1_5`), the body's triple, the pipeline's proof data and the body obligation.
  Windows 1 and 2 read the SAME array (the first layer's output, once whole and once by row panel): the proof data holds
  that array at the two halves of its full share, one half per window.
-/
import proofs.«163987_g44830868636165_cont_8to1_c_628_3_alg».proof.Proof.Gen.KernelIdeal.Launch
import proofs.«163987_g44830868636165_cont_8to1_c_628_3_alg».proof.Proof.Gen.KernelIdeal.Skeleton
import proofs.«163987_g44830868636165_cont_8to1_c_628_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window
    fetched only at the first point keeps its block: its index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The adjacency panel, whole. -/
abbrev r1_a : Rect S400x10000 := Rect.unit (s := S400x10000) ![0, 0] S400x10000.size inb_S400x10000_S400x10000_0_0
/-- The features, whole. -/
abbrev r1_v : Rect S10000x128 := Rect.unit (s := S10000x128) ![0, 0] S10000x128.size inb_S10000x128_S10000x128_0_0
/-- A 400-row panel of features (the node's own rows; also the output block). -/
abbrev r1_b : Rect S400x128 := Rect.unit (s := S400x128) ![0, 0] S400x128.size inb_S400x128_S400x128_0_0
/-- The weight's first 128 rows. -/
abbrev r1_wlo : Rect S256x128 := Rect.unit (s := S256x128) ![0, 0] S128x128.size inb_S256x128_S128x128_0_0
/-- The weight's last 128 rows. -/
abbrev r1_whi : Rect S256x128 := Rect.unit (s := S256x128) ![128, 0] S128x128.size inb_S256x128_S128x128_128_0
/-- The bias row. -/
abbrev r1_bias : Rect S1x128 := Rect.unit (s := S1x128) ![0, 0] S1x128.size inb_S1x128_S1x128_0_0

/-! ## What the body leaves in the output window's buffer -/

/-- The output staging buffer after the body, from the input windows' blocks: its one store, of the layer's
    payload over what the body loaded. -/
def out1_5 (x0 : Vec F S400x10000 .f32) (x1 : Vec F S10000x128 .f32) (x2 : Vec F S400x128 .f32) (x3 : Vec F S256x128 .f32) (x4 : Vec F S1x128 .f32) : Vec F S400x128 .f32 :=
  View.canon [⟨r1_b, k1_pay1 (View.ld x0 r1_a) (View.ld x1 r1_v) (View.ld x2 r1_b) (View.ld x3 r1_wlo) (View.ld x3 r1_whi) (View.ld x4 r1_bias)⟩]

/-- The one store covers the buffer. -/
theorem cover1_5 (p0 : Vec F S400x128 .f32) (y : S400x128.Idx) :
    ∃ pc ∈ ([⟨r1_b, p0⟩] : List (View.Piece (Elt F) S400x128 .f32)), y ∈ pc.1.set :=
  View.cover_of_tiled [⟨r1_b, p0⟩] S400x128.size (by rfl) y

/-! ## The body's triple -/

set_option maxHeartbeats 4000000 in
/-- The kernel body on whole staging memrefs, the inputs' at read contents `xW` and the output's at anything, runs
    to the continuation holding the inputs' as they were and the output's at `out1_5` of the inputs'. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S400x128 .f32) (harg6 : arg6.IsWhole)
    (x0 : Vec F S400x10000 .f32) (x1 : Vec F S10000x128 .f32) (x2 : Vec F S400x128 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__conv_body i arg1 harg1 arg2 harg2 arg3 harg3 arg4 harg4 arg5 harg5 arg6 harg6) K := by
  simp only [cc1__conv_body_eq_skeleton]; unfold cc1__conv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant the scoped
    rest and the generator register, untouched; nothing owed. The features' array is read by windows 1 and 2:
    each holds it at one half of the full share; every other input array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Conv

end
-- ==== Proof.Arrays1.lean ====
/-
  Region 1's arrays at its boundaries. The TensorCore's unscoped buffers are the buffers behind the region's
  windows and the rest; behind the six windows stand FIVE buffers, the first layer's output array serving two windows.
  Entering, that array's full share is dealt to the two windows as its two halves; leaving, the halves are
  joined again, the inputs' arrays are as they were found and the output's array holds what the write-backs left.
-/
import proofs.«163987_g44830868636165_cont_8to1_c_628_3_alg».proof.Proof.Region1

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five buffers behind region 1's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_v1) ↦{fullShare} X main_v1)
          ∗ (((c : Thread nD τ).loc main_arg4) ↦{fullShare} X main_arg4) ∗ (((c : Thread nD τ).loc main_v2) ↦{fullShare} X main_v2)
          ∗ (((c : Thread nD τ).loc main_v3) ↦{fullShare} X main_v3)) := by
  unfold Pipeline.arrBufs
  exact BI.bigSep_eq_bigSepL_of_eq [main_arg1, main_v1, main_arg4, main_v2, main_v3] (by decide) (by decide) _

/-- The proof data's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v1) ↦{fullShare.left} G 1)
          ∗ (((c : Thread nD τ).loc main_v1) ↦{fullShare.right} G 2) ∗ (((c : Thread nD τ).loc main_arg4) ↦{fullShare} G 3)
          ∗ (((c : Thread nD τ).loc main_v2) ↦{fullShare} G 4) ∗ (((c : Thread nD τ).loc main_v3) ↦{fullShare} G 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rfl

/-- ENTRY: the core's unscoped buffers at `V` are the proof data's arrays at their entry contents — the
    features' array dealt to windows 1 and 2 by halves — and the unscoped buffers no window reads. -/
theorem entry1 (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c))
      from Pipeline.unscopedBufs_split₀ cfgs 1 winFacts₀1.arr_unscoped c (V c), arrBufs1_eq, arrays1_eq]
  iintro ⟨⟨H1, H0, H2, Hv0, Hv1⟩, Hrest⟩
  ihave H0' := (pointsTo_share (PosShare.mem_left_op_right fullShare)).1 $$ H0
  icases H0' with ⟨H0l, H0r⟩
  isplitr [Hrest]
  · isplitl [H1]; · iexact H1
    isplitl [H0l]; · iexact H0l
    isplitl [H0r]; · iexact H0r
    isplitl [H2]; · iexact H2
    isplitl [Hv0]; · iexact Hv0
    iexact Hv1
  iexact Hrest

/-- EXIT: the arrays after the last point — every input's as found, the output's at what the write-backs left —
    and the buffers no window reads make the core's unscoped buffers at any `V'` that holds the output's array
    at those contents and every other buffer at what `V` held. -/
theorem exit1 (c : Dev nD) (X : (b : Ref sig .tc) → Buf (Elt F) ((c : Thread nD τ).loc b))
    (hout : X main_v3 = (dat1 V c).arrAt 5 cfg1.N) (hrest : ∀ b : Ref sig .tc, b ≠ main_v3 → X b = V c b) :
    iprop((dat1 V c).arrays ((dat1 V c).arrAt · cfg1.N) ∗ Pipeline.unscopedRest spec1 c (V c)) ⊢ (unscopedBufs c X : sProp 𝕄) := by
  rw [show (unscopedBufs c X : sProp 𝕄) = iprop(Pipeline.arrBufs spec1 c X ∗ Pipeline.unscopedRest spec1 c X)
      from Pipeline.unscopedBufs_split₀ cfgs 1 winFacts₀1.arr_unscoped c X, arrBufs1_eq, arrays1_eq,
    unscopedRest1_eq c (V c), unscopedRest1_eq c X,
    (dat1 V c).arrAt_in 0 rfl, (dat1 V c).arrAt_in 1 rfl, (dat1 V c).arrAt_in 2 rfl, (dat1 V c).arrAt_in 3 rfl, (dat1 V c).arrAt_in 4 rfl,
    hout, hrest main_arg1 (by decide), hrest main_v1 (by decide), hrest main_arg4 (by decide), hrest main_v2 (by decide),
    hrest main_arg3 (by decide), hrest main_arg2 (by decide), hrest main_arg5 (by decide), hrest main_v0 (by decide), hrest main_arg0 (by decide)]
  iintro ⟨⟨H1, H0l, H0r, H2, Hv0, Hv1⟩, Hrest⟩
  ihave H0 := (pointsTo_share (PosShare.mem_left_op_right fullShare)).2 $$ [H0l H0r]
  · isplitl [H0l]; · iexact H0l
    iexact H0r
  isplitr [Hrest]
  · isplitl [H1]; · iexact H1
    isplitl [H0]; · iexact H0
    isplitl [H2]; · iexact H2
    isplitl [Hv0]; · iexact Hv0
    iexact Hv1
  iexact Hrest

end Cert.KernelIdeal.Conv

end
-- ==== Proof.Run.lean ====
/-
  The run of the idealized kernel program's @main: a reshape of the first bias, the first layer's region, a
  reshape of the second bias, the second layer's region. The TensorCore's unscoped buffers are followed through
  the four items as a fold from the launch memory: a host stretch applies its operations, a region replaces its
  output array by what its write-backs leave and changes nothing else. Each region is entered by dealing its
  windows' arrays out of the unscoped buffers (the array two windows share by halves) and left by putting them
  back. Every weakly fair execution terminates, nothing faulting, with every unscoped buffer at the last
  boundary's contents (`run_all`); the arguments are never written, so they end as launched (`frame`).
-/
import proofs.«163987_g44830868636165_cont_8to1_c_628_3_alg».proof.Proof.Arrays0
import proofs.«163987_g44830868636165_cont_8to1_c_628_3_alg».proof.Proof.Arrays1
import proofs.«163987_g44830868636165_cont_8to1_c_628_3_alg».proof.Proof.Gen.KernelIdeal.Regions

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first bias's reshape (region 0's entry). -/
abbrev W1 : Dev nD → Valuation τ sig (Elt F) := fun c => StableHlo.after hostOps0 (W0 m c)
/-- The same read at the TensorCore's references. -/
abbrev B1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) main_v1 ((dat0 (B1 m) c).arrAt 5 cfg0.N)
abbrev B2 : (c : Dev nD) → (b : Ref sig .tc) → Buf (Elt F) ((c : Thread nD τ).loc b) := fun c b => W2 m c b
theorem W2_out (c : Dev nD) : B2 m c main_v1 = (dat0 (B1 m) c).arrAt 5 cfg0.N := by
  show W2 m c main_v1 = _; unfold W2; exact Function.update_self ..
theorem W2_of_ne (c : Dev nD) (b : Ref sig .tc) (hb : b ≠ main_v1) : B2 m c b = B1 m c b := by
  show W2 m c b = W1 m c b; unfold W2
  exact Function.update_of_ne (StableHlo.devRef_ne_of_ne hb : (Proc.devRef .tc b : DevRef τ sig) ≠ Proc.devRef .tc main_v1) _ _
/-- After the second bias's reshape (region 1's entry). -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b
/-- At region 1's exit. -/
def W4 (c : Dev nD) : Valuation τ sig (Elt F) :=
  Function.update (W3 m c) main_v3 ((dat1 (B3 m) c).arrAt 5 cfg1.N)
abbrev B4 : (c : Dev nD) → (b : Ref sig .tc) → Buf (Elt F) ((c : Thread nD τ).loc b) := fun c b => W4 m c b
theorem W4_out (c : Dev nD) : B4 m c main_v3 = (dat1 (B3 m) c).arrAt 5 cfg1.N := by
  show W4 m c main_v3 = _; unfold W4; exact Function.update_self ..
theorem W4_of_ne (c : Dev nD) (b : Ref sig .tc) (hb : b ≠ main_v3) : B4 m c b = B3 m c b := by
  show W4 m c b = W3 m c b; unfold W4
  exact Function.update_of_ne (StableHlo.devRef_ne_of_ne hb : (Proc.devRef .tc b : DevRef τ sig) ≠ Proc.devRef .tc main_v3) _ _

/-- A buffer neither reshape writes and neither region's output reaches the end as launched. -/
theorem W4_kept (c : Dev nD) (b : Ref sig .tc) (h0 : b ∉ hostOps0_W) (h1 : b ≠ main_v1) (h2 : b ∉ hostOps1_W) (h3 : b ≠ main_v3) :
    B4 m c b = m ((c : Thread nD τ).loc b) :=
  (W4_of_ne m c b h3).trans <| (StableHlo.after_of_writes_sub hostOps1 _ hostOps1_writes h2).trans <|
    (W2_of_ne m c b h1).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := entry0 (B1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (B1 m) c (B2 m c) (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := entry1 (B3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (B3 m) c (B4 m c) (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the items. -/
theorem main_run (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide))⟩)
    (run_all m ρ)

end Cert.KernelIdeal.Conv

end
-- ==== Proof.Spec.lean ====
/-
  The mathematics both programs compute, on the extended reals: two graph-convolution layers over a dense
  adjacency matrix. One layer takes features `v` (10000 × 128), the adjacency `A` (10000 × 10000), a weight
  `W` (256 × 128) and a bias `b` (128) to
      relu( v · W[0:128] + (A · v) · W[128:256] + b ),
  the first 128 rows of `W` meeting the node's own features and the last 128 its aggregate `A · v`; the
  second layer adds the first layer's output back before a last relu. Every sum here is a finite sum of
  extended reals, where `+` is commutative and associative, so a sum over 256 contraction indices is the sum
  over its first 128 plus the sum over its last 128 (`sum_halves`): the only law that separates the
  "concatenate then multiply" reading from the "multiply the halves then add" one.
-/
import Idealize.ShloMosaic.PureOps.Ideal
import Idealize.ShloMosaic.Lib.ValueIdx
import Mathlib.Algebra.BigOperators.Fin

noncomputable section

open scoped BigOperators

namespace Cert.Gcn

open Idealize.ShloMosaic Idealize.ShloMosaic.ValueIdx

/-- Node features, 10000 nodes by 128 channels. -/
abbrev SF : Shape := ⟨2, ![10000, 128]⟩
/-- The dense adjacency matrix. -/
abbrev SA : Shape := ⟨2, ![10000, 10000]⟩
/-- A layer's weight: rows 0–127 for the node itself, rows 128–255 for its aggregate. -/
abbrev SW : Shape := ⟨2, ![256, 128]⟩
/-- A layer's bias. -/
abbrev SB : Shape := ⟨1, ![128]⟩

/-- The float word `0.0` at the ideal values (both programs write the same word; it is never evaluated). -/
def zero : EReal := Ideal.ofBits .f32 0x00000000#32

/-- Row `d` of the weight's upper half. -/
def lo (d : Fin 128) : Fin 256 := ⟨d.val, by omega⟩
/-- Row `d` of the weight's lower half. -/
def hi (d : Fin 128) : Fin 256 := ⟨128 + d.val, by omega⟩

/-- The aggregate `(A · v)[n, d]`. -/
def agg (A : SA.Idx → EReal) (v : SF.Idx → EReal) (n : Fin 10000) (d : Fin 128) : EReal :=
  ∑ k : Fin 10000, A (ix2 n k) * v (ix2 k d)

/-- A layer before its activation, at node `n` and output channel `f`: the node's own part, its aggregate's
    part, then the bias. -/
def pre (v : SF.Idx → EReal) (A : SA.Idx → EReal) (W : SW.Idx → EReal) (b : SB.Idx → EReal)
    (n : Fin 10000) (f : Fin 128) : EReal :=
  (∑ d : Fin 128, v (ix2 n d) * W (ix2 (lo d) f) + ∑ d : Fin 128, agg A v n d * W (ix2 (hi d) f)) + b (ix1 f)

/-- One layer: relu of `pre`. -/
def conv (v : SF.Idx → EReal) (A : SA.Idx → EReal) (W : SW.Idx → EReal) (b : SB.Idx → EReal) : SF.Idx → EReal :=
  fun i => max (pre v A W b (i 0) (i 1)) zero

/-- The second layer with its residual: relu( relu(pre h) + h ). -/
def convRes (h : SF.Idx → EReal) (A : SA.Idx → EReal) (W : SW.Idx → EReal) (b : SB.Idx → EReal) : SF.Idx → EReal :=
  fun i => max (max (pre h A W b (i 0) (i 1)) zero + h i) zero

/-- The whole network. -/
def out (x : SF.Idx → EReal) (A : SA.Idx → EReal) (W1 : SW.Idx → EReal) (b1 : SB.Idx → EReal)
    (W2 : SW.Idx → EReal) (b2 : SB.Idx → EReal) : SF.Idx → EReal :=
  convRes (conv x A W1 b1) A W2 b2

/-- A sum over 256 indices is the sum over the first 128 plus the sum over the last 128. -/
theorem sum_halves (g : Fin 256 → EReal) : ∑ k : Fin 256, g k = ∑ d : Fin 128, g (lo d) + ∑ d : Fin 128, g (hi d) := by
  have h := Fin.sum_univ_add (M := EReal) (a := 128) (b := 128) (fun k : Fin (128 + 128) => g k)
  refine h.trans ?_
  congr 1

end Cert.Gcn

end
-- ==== Proof.Payload.lean ====
/-
  The kernel bodies' stored values at the ideal values, read at one element (row `p` of the 400-row panel,
  channel `q`): each `tpu.matmul` into a zero accumulator is the finite sum of products over its contraction
  axis, the bias row is broadcast down the panel, relu is a `max` with the zero word; the second layer's body
  adds the node's own features back before a last relu.
-/
import proofs.«163987_g44830868636165_cont_8to1_c_628_3_alg».proof.Proof.Gen.KernelIdeal.Skeleton
import proofs.«163987_g44830868636165_cont_8to1_c_628_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The 400 × 10000 by 10000 × 128 product: operand indices by coordinates, then the product at an element -/

/-- The left operand's row coordinate is the result's row. -/
theorem lhs_big_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column coordinate is the contraction index. -/
theorem lhs_big_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row coordinate is the contraction index. -/
theorem rhs_big_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column coordinate is the result's column. -/
theorem rhs_big_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into a zero accumulator the product at row `p`, column `d` is the sum over the 10000 contraction indices
    of left at `(p, k)` times right at `(k, d)`. -/
theorem matmul_big_apply (l : FVec Ideal S400x10000 .f32) (r : FVec Ideal S10000x128 .f32) (p : Fin 400) (d : Fin 128) :
    matmul (F := Ideal) dot_S400x10000_S10000x128_S400x128_1_0_0_1_n_n none l r (constant (F := Ideal) S400x128 .f32 0x00000000#32) (ix2 p d)
      = ∑ k : Fin 10000, l (ix2 p k) * r (ix2 k d) := by
  refine (Ideal.matmul_constant_zero_apply dot_S400x10000_S10000x128_S400x128_1_0_0_1_n_n none l r (ix2 p d)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p d) ((ValueIdx.contrEquiv1 dot_S400x10000_S10000x128_S400x128_1_0_0_1_n_n 10000 rfl rfl).symm k) = ix2 p k := funext fun a => Fin.ext (by
    match a with
    | ⟨0, _⟩ => exact lhs_big_0 _ _
    | ⟨1, _⟩ => exact (lhs_big_1 _ _).trans hk)
  have er : dot_S400x10000_S10000x128_S400x128_1_0_0_1_n_n.rhsIdx (ix2 p d) ((ValueIdx.contrEquiv1 dot_S400x10000_S10000x128_S400x128_1_0_0_1_n_n 10000 rfl rfl).symm k) = ix2 k d := funext fun a => Fin.ext (by
    match a with
    | ⟨0, _⟩ => exact (rhs_big_0 _ _).trans hk
    | ⟨1, _⟩ => exact rhs_big_1 _ _)
  rw [el, er]

/-! ## The 400 × 128 by 128 × 128 product: operand indices by coordinates, then the product at an element -/

/-- The left operand's row coordinate is the result's row. -/
theorem lhs_sq_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column coordinate is the contraction index. -/
theorem lhs_sq_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the contraction index. -/
theorem rhs_sq_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column coordinate is the result's column. -/
theorem rhs_sq_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into a zero accumulator the product at row `p`, column `d` is the sum over the 128 contraction indices
    of left at `(p, k)` times right at `(k, d)`. -/
theorem matmul_sq_apply (l : FVec Ideal S400x128 .f32) (r : FVec Ideal S128x128 .f32) (p : Fin 400) (d : Fin 128) :
    matmul (F := Ideal) dot_S400x128_S128x128_S400x128_1_0_0_1_n_n none l r (constant (F := Ideal) S400x128 .f32 0x00000000#32) (ix2 p d)
      = ∑ k : Fin 128, l (ix2 p k) * r (ix2 k d) := by
  refine (Ideal.matmul_constant_zero_apply dot_S400x128_S128x128_S400x128_1_0_0_1_n_n none l r (ix2 p d)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p d) ((ValueIdx.contrEquiv1 dot_S400x128_S128x128_S400x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S400x128_S128x128_S400x128_1_0_0_1_n_n.rhsIdx (ix2 p d) ((ValueIdx.contrEquiv1 dot_S400x128_S128x128_S400x128_1_0_0_1_n_n 128 rfl rfl).symm k) = ix2 k d := funext fun a => Fin.ext (by
    match a with
    | ⟨0, _⟩ => exact (rhs_sq_0 _ _).trans hk
    | ⟨1, _⟩ => exact rhs_sq_1 _ _)
  rw [el, er]

/-! ## The two bodies -/

/-- The bias row, cast to its own shape and broadcast down the 400 rows, reads the row's channel `q`. -/
theorem bias_apply (b : FVec Ideal S1x128 .f32) (p : Fin 400) (q : Fin 128) :
    broadcastTo S400x128 (shapeCast S1x128 b shapeCasts_S1x128_S1x128) broadcasts_S1x128_S400x128 (ix2 p q)
      = b (ix2 0 q) := by
  rw [shapeCast_self]
  refine broadcastTo_apply b broadcasts_S1x128_S400x128 (ix2 p q) (ix2 0 q) fun a => ?_
  match a with
  | ⟨0, _⟩ => rfl
  | ⟨1, _⟩ => rfl

/-- The layer before its activation, shared by the two bodies: the node's own product, the aggregate's product
    (its left operand the inner 10000-term product), and the bias. -/
theorem pre_apply (a : FVec Ideal S400x10000 .f32) (v : FVec Ideal S10000x128 .f32) (vi : FVec Ideal S400x128 .f32)
    (wlo whi : FVec Ideal S128x128 .f32) (b : FVec Ideal S1x128 .f32) (p : Fin 400) (q : Fin 128) :
    (matmul (F := Ideal) dot_S400x128_S128x128_S400x128_1_0_0_1_n_n none vi wlo (constant (F := Ideal) S400x128 .f32 0x00000000#32) (ix2 p q)
      + matmul (F := Ideal) dot_S400x128_S128x128_S400x128_1_0_0_1_n_n none
          (matmul (F := Ideal) dot_S400x10000_S10000x128_S400x128_1_0_0_1_n_n none a v (constant (F := Ideal) S400x128 .f32 0x00000000#32))
          whi (constant (F := Ideal) S400x128 .f32 0x00000000#32) (ix2 p q))
      + broadcastTo S400x128 (shapeCast S1x128 b shapeCasts_S1x128_S1x128) broadcasts_S1x128_S400x128 (ix2 p q)
    = (∑ d : Fin 128, vi (ix2 p d) * wlo (ix2 d q)
        + ∑ d : Fin 128, (∑ k : Fin 10000, a (ix2 p k) * v (ix2 k d)) * whi (ix2 d q))
      + b (ix2 0 q) := by
  rw [matmul_sq_apply, matmul_sq_apply, bias_apply]
  refine congrArg (fun t => (_ + t) + _) ?_
  exact Finset.sum_congr rfl fun d _ => by rw [matmul_big_apply]

/-- The first layer's stored value at row `p`, channel `q` of the panel. -/
theorem pay0_apply (a : Vec Ideal S400x10000 .f32) (v : Vec Ideal S10000x128 .f32) (vi : Vec Ideal S400x128 .f32)
    (wlo whi : Vec Ideal S128x128 .f32) (b : Vec Ideal S1x128 .f32) (p : Fin 400) (q : Fin 128) :
    k0_pay1 (F := Ideal) a v vi wlo whi b (ix2 p q)
      = max ((∑ d : Fin 128, vi (ix2 p d) * wlo (ix2 d q)
              + ∑ d : Fin 128, (∑ k : Fin 10000, a (ix2 p k) * v (ix2 k d)) * whi (ix2 d q))
            + b (ix2 0 q)) Cert.Gcn.zero := by
  unfold k0_pay1
  exact congrArg (fun t => max t Cert.Gcn.zero) (pre_apply a v vi wlo whi b p q)

/-- The second layer's stored value at row `p`, channel `q` of the panel: the same, plus the node's own
    features, under a second relu. -/
theorem pay1_apply (a : Vec Ideal S400x10000 .f32) (v : Vec Ideal S10000x128 .f32) (vi : Vec Ideal S400x128 .f32)
    (wlo whi : Vec Ideal S128x128 .f32) (b : Vec Ideal S1x128 .f32) (p : Fin 400) (q : Fin 128) :
    k1_pay1 (F := Ideal) a v vi wlo whi b (ix2 p q)
      = max (max ((∑ d : Fin 128, vi (ix2 p d) * wlo (ix2 d q)
              + ∑ d : Fin 128, (∑ k : Fin 10000, a (ix2 p k) * v (ix2 k d)) * whi (ix2 d q))
            + b (ix2 0 q)) Cert.Gcn.zero + vi (ix2 p q)) Cert.Gcn.zero := by
  unfold k1_pay1
  rw [shapeCast_self v, shapeCast_self vi]
  exact congrArg (fun t => max (max t Cert.Gcn.zero + vi (ix2 p q)) Cert.Gcn.zero) (pre_apply a v vi wlo whi b p q)

end Cert.KernelIdeal.Pay

end
-- ==== Proof.Blocks0.lean ====
/-
  What region 0 leaves in its output array, at the ideal values: the first graph-convolution layer of the arrays
  the region was entered with. At grid point `t` the body stores the layer's value for the 400 nodes of panel
  `t` (rows 400·t … 400·t + 399), computed from the adjacency's panel `t`, the whole feature array, the
  nodes' own rows, the weight's two halves and the bias row; the 25 panels tile the 10000 nodes, so the array
  after the last write-back is the layer everywhere.
-/
import proofs.«163987_g44830868636165_cont_8to1_c_628_3_alg».proof.Proof.Region0
import proofs.«163987_g44830868636165_cont_8to1_c_628_3_alg».proof.Proof.Payload
import proofs.«163987_g44830868636165_cont_8to1_c_628_3_alg».proof.Proof.Spec
import Idealize.ShloMosaic.Lib.Pipeline.Value
import Idealize.ShloMosaic.Lib.ValueIdx

set_option maxRecDepth 16384

noncomputable section

open scoped BigOperators

namespace Cert.KernelIdeal.Conv

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offsets of a whole-buffer access. -/
theorem offs_zero : (![0, 0] : Fin 2 → Nat) = fun _ => 0 := funext fun a => by fin_cases a <;> rfl

/-- The block indices over the 25 grid points: the adjacency's panel, the nodes' own rows and the output panel sit at
    row block `t`, column block 0; the whole features, the weight and the bias row at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The adjacency window's block at point `t` is rows `400 t … 400 t + 399` of the adjacency. -/
theorem blk_adj (c : Dev nD) (t : Fin cfg0.N) (y : S400x10000.Idx) (k : S10000x10000.Idx)
    (hk0 : (k 0).val = 400 * t.val + (y 0).val) (hk1 : (k 1).val = (y 1).val) :
    (iblk0 V c 0 t : Vec Ideal S400x10000 .f32) y = (V c main_arg1 : S10000x10000.Idx → EReal) k := by
  obtain ⟨f0, f1, -, -, -, -, -, -, -, -, -, -⟩ := idx_facts0 t
  unfold iblk0
  rw [View.read_apply]
  show V c main_arg1 _ = V c main_arg1 _
  congr 1
  funext a
  apply Fin.ext
  match a with
  | ⟨0, _⟩ => show win0_0.index t (0 : Fin 2) * 400 + 1 * (y 0).val = (k 0).val; rw [f0, hk0]; omega
  | ⟨1, _⟩ => show win0_0.index t (1 : Fin 2) * 10000 + 1 * (y 1).val = (k 1).val; rw [f1, hk1]; omega

/-- The features' whole-array window reads the features themselves. -/
theorem blk_feat (c : Dev nD) (t : Fin cfg0.N) (y : S10000x128.Idx) (k : S10000x128.Idx)
    (hk0 : (k 0).val =  (y 0).val) (hk1 : (k 1).val = (y 1).val) :
    (iblk0 V c 1 t : Vec Ideal S10000x128 .f32) y = (V c main_arg0 : S10000x128.Idx → EReal) k := by
  obtain ⟨-, -, f0, f1, -, -, -, -, -, -, -, -⟩ := idx_facts0 t
  unfold iblk0
  rw [View.read_apply]
  show V c main_arg0 _ = V c main_arg0 _
  congr 1
  funext a
  apply Fin.ext
  match a with
  | ⟨0, _⟩ => show win0_1.index t (0 : Fin 2) * 10000 + 1 * (y 0).val = (k 0).val; rw [f0, hk0]; omega
  | ⟨1, _⟩ => show win0_1.index t (1 : Fin 2) * 128 + 1 * (y 1).val = (k 1).val; rw [f1, hk1]; omega

/-- The row-panel window's block at point `t` is rows `400 t … 400 t + 399` of the features. -/
theorem blk_own (c : Dev nD) (t : Fin cfg0.N) (y : S400x128.Idx) (k : S10000x128.Idx)
    (hk0 : (k 0).val = 400 * t.val + (y 0).val) (hk1 : (k 1).val = (y 1).val) :
    (iblk0 V c 2 t : Vec Ideal S400x128 .f32) y = (V c main_arg0 : S10000x128.Idx → EReal) k := by
  obtain ⟨-, -, -, -, f0, f1, -, -, -, -, -, -⟩ := idx_facts0 t
  unfold iblk0
  rw [View.read_apply]
  show V c main_arg0 _ = V c main_arg0 _
  congr 1
  funext a
  apply Fin.ext
  match a with
  | ⟨0, _⟩ => show win0_2.index t (0 : Fin 2) * 400 + 1 * (y 0).val = (k 0).val; rw [f0, hk0]; omega
  | ⟨1, _⟩ => show win0_2.index t (1 : Fin 2) * 128 + 1 * (y 1).val = (k 1).val; rw [f1, hk1]; omega

/-- The weight's window reads the whole weight. -/
theorem blk_weight (c : Dev nD) (t : Fin cfg0.N) (y : S256x128.Idx) (k : S256x128.Idx)
    (hk0 : (k 0).val =  (y 0).val) (hk1 : (k 1).val = (y 1).val) :
    (iblk0 V c 3 t : Vec Ideal S256x128 .f32) y = (V c main_arg2 : S256x128.Idx → EReal) k := by
  obtain ⟨-, -, -, -, -, -, f0, f1, -, -, -, -⟩ := idx_facts0 t
  unfold iblk0
  rw [View.read_apply]
  show V c main_arg2 _ = V c main_arg2 _
  congr 1
  funext a
  apply Fin.ext
  match a with
  | ⟨0, _⟩ => show win0_3.index t (0 : Fin 2) * 256 + 1 * (y 0).val = (k 0).val; rw [f0, hk0]; omega
  | ⟨1, _⟩ => show win0_3.index t (1 : Fin 2) * 128 + 1 * (y 1).val = (k 1).val; rw [f1, hk1]; omega

/-- The bias window reads the bias row. -/
theorem blk_bias (c : Dev nD) (t : Fin cfg0.N) (y : S1x128.Idx) (k : S1x128.Idx)
    (hk0 : (k 0).val =  (y 0).val) (hk1 : (k 1).val = (y 1).val) :
    (iblk0 V c 4 t : Vec Ideal S1x128 .f32) y = (V c main_v0 : S1x128.Idx → EReal) k := by
  obtain ⟨-, -, -, -, -, -, -, -, f0, f1, -, -⟩ := idx_facts0 t
  unfold iblk0
  rw [View.read_apply]
  show V c main_v0 _ = V c main_v0 _
  congr 1
  funext a
  apply Fin.ext
  match a with
  | ⟨0, _⟩ => show win0_4.index t (0 : Fin 2) * 1 + 1 * (y 0).val = (k 0).val; rw [f0, hk0]; omega
  | ⟨1, _⟩ => show win0_4.index t (1 : Fin 2) * 128 + 1 * (y 1).val = (k 1).val; rw [f1, hk1]; omega

/-- The body's first weight load is the weight's rows 0 … 127. -/
theorem wlo_apply (x3 : Vec Ideal S256x128 .f32) (d q : Fin 128) :
    View.ld x3 r0_wlo (ix2 d q) = x3 (ix2 (Cert.Gcn.lo d) q) := by
  show x3 _ = x3 _
  congr 1
  funext a
  apply Fin.ext
  match a with
  | ⟨0, _⟩ => show 0 + 1 * d.val = d.val; omega
  | ⟨1, _⟩ => show 0 + 1 * q.val = q.val; omega

/-- The body's second weight load is the weight's rows 128 … 255. -/
theorem whi_apply (x3 : Vec Ideal S256x128 .f32) (d q : Fin 128) :
    View.ld x3 r0_whi (ix2 d q) = x3 (ix2 (Cert.Gcn.hi d) q) := by
  show x3 _ = x3 _
  congr 1
  funext a
  apply Fin.ext
  match a with
  | ⟨0, _⟩ => show 128 + 1 * d.val = 128 + d.val; omega
  | ⟨1, _⟩ => show 0 + 1 * q.val = q.val; omega

/-- The stored value at row `p`, channel `q` of a panel is the layer at node `n`, channel `q`, once the loaded blocks
    read the arrays where node `n`'s rows lie: term by term the two sums of products, the bias and the relu agree. -/
theorem pay_conv (A : S10000x10000.Idx → EReal) (X : S10000x128.Idx → EReal) (W : S256x128.Idx → EReal) (B : S1x128.Idx → EReal)
    (x0 : Vec Ideal S400x10000 .f32) (x1 : Vec Ideal S10000x128 .f32) (x2 : Vec Ideal S400x128 .f32)
    (x3 : Vec Ideal S256x128 .f32) (x4 : Vec Ideal S1x128 .f32)
    (p : Fin 400) (q : Fin 128) (n : Fin 10000)
    (h0 : ∀ k : Fin 10000, x0 (ix2 p k) = A (ix2 n k))
    (h1 : ∀ (k : Fin 10000) (d : Fin 128), x1 (ix2 k d) = X (ix2 k d))
    (h2 : ∀ d : Fin 128, x2 (ix2 p d) = X (ix2 n d))
    (h3 : ∀ r : Fin 256, x3 (ix2 r q) = W (ix2 r q))
    (h4 : x4 (ix2 0 q) = B (ix2 0 q)) :
    k0_pay1 (F := Ideal) x0 x1 x2 (View.ld x3 r0_wlo) (View.ld x3 r0_whi) x4 (ix2 p q)
      = Cert.Gcn.conv X A W (fun j => B (ix2 0 (j 0))) (ix2 n q) := by
  rw [Pay.pay0_apply]
  show _ = max ((∑ d : Fin 128, X (ix2 n d) * W (ix2 (Cert.Gcn.lo d) q)
      + ∑ d : Fin 128, (∑ k : Fin 10000, A (ix2 n k) * X (ix2 k d)) * W (ix2 (Cert.Gcn.hi d) q)) + B (ix2 0 q)) Cert.Gcn.zero
  rw [h4]
  refine congrArg (fun s => max (s + B (ix2 0 q)) Cert.Gcn.zero) ?_
  refine congrArg₂ (· + ·) (Finset.sum_congr rfl fun d _ => ?_) (Finset.sum_congr rfl fun d _ => ?_)
  · rw [h2, wlo_apply, h3]
  · rw [whi_apply, h3]
    exact congrArg (· * W (ix2 (Cert.Gcn.hi d) q)) (Finset.sum_congr rfl fun k _ => by rw [h0, h1])

/-- What the output array ends holding. -/
abbrev G0 (c : Dev nD) : S10000x128.Idx → EReal :=
  Cert.Gcn.conv (V c main_arg0) (V c main_arg1) (V c main_arg2) (fun j => V c main_v0 (ix2 0 (j 0)))

/-- At point `t` the body's stored value at row `p`, channel `q` is the layer at node `400 t + p`, channel `q`. -/
theorem point_eq (c : Dev nD) (t : Fin cfg0.N) (p : Fin 400) (q : Fin 128) (i : S10000x128.Idx)
    (hi0 : (i 0).val = 400 * t.val + p.val) (hi1 : (i 1).val = q.val) :
    k0_pay1 (F := Ideal) (iblk0 V c 0 t) (iblk0 V c 1 t) (iblk0 V c 2 t) (View.ld (iblk0 V c 3 t) r0_wlo)
        (View.ld (iblk0 V c 3 t) r0_whi) (iblk0 V c 4 t) (ix2 p q) = G0 V c i := by
  obtain ⟨n, f, rfl⟩ : ∃ (n : Fin 10000) (f : Fin 128), i = ix2 n f := ⟨i 0, i 1, eq_ix2 i⟩
  obtain rfl : f = q := Fin.ext hi1
  exact pay_conv (V c main_arg1) (V c main_arg0) (V c main_arg2) (V c main_v0)
    (iblk0 V c 0 t) (iblk0 V c 1 t) (iblk0 V c 2 t) (iblk0 V c 3 t) (iblk0 V c 4 t) p f n
    (fun k => blk_adj V c t (ix2 p k) (ix2 n k) hi0 rfl)
    (fun k d => blk_feat V c t (ix2 k d) (ix2 k d) rfl rfl)
    (fun d => blk_own V c t (ix2 p d) (ix2 n d) hi0 rfl)
    (fun r => blk_weight V c t (ix2 r f) (ix2 r f) rfl rfl)
    (blk_bias V c t (ix2 0 f) (ix2 0 f) rfl rfl)

/-- What point `t` writes back is block `t` of the layer of the arrays the region was entered with. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero offs_zero]
  simp only [View.ld_unit_zero (S := S400x10000) offs_zero, View.ld_unit_zero (S := S10000x128) offs_zero,
    View.ld_unit_zero (S := S400x128) offs_zero, View.ld_unit_zero (S := S1x128) offs_zero]
  obtain ⟨-, -, -, -, -, -, -, -, -, -, f0, f1⟩ := idx_facts0 t
  funext j
  obtain ⟨p, q, rfl⟩ : ∃ (p : Fin 400) (q : Fin 128), j = ix2 p q := ⟨j 0, j 1, eq_ix2 j⟩
  rw [View.read_apply]
  refine point_eq V c t p q _ ?_ ?_
  · show win0_5.index t (0 : Fin 2) * 400 + 1 * p.val = 400 * t.val + p.val; rw [f0]; omega
  · show win0_5.index t (1 : Fin 2) * 128 + 1 * q.val = q.val; rw [f1]; omega

/-- An index of the output array is in point `t`'s block iff each coordinate is in the block's range on its axis. -/
theorem mem_blk0 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- The 25 panels tile the 10000 nodes: node `r` lies in panel `r / 400`. -/
theorem cover0 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 400 < cfg0.N := by show _ < 25; omega
  obtain ⟨-, -, -, -, -, -, -, -, -, -, f0, f1⟩ := idx_facts0 ⟨(i 0).val / 400, ht⟩
  refine ⟨⟨(i 0).val / 400, ht⟩, flush0_5 _, ?_⟩
  rw [mem_blk0]
  intro a
  match a with
  | ⟨0, _⟩ => show win0_5.index ⟨(i 0).val / 400, ht⟩ (0 : Fin 2) * 400 ≤ (i 0).val ∧ (i 0).val < win0_5.index ⟨(i 0).val / 400, ht⟩ (0 : Fin 2) * 400 + 400; rw [f0]; show (i 0).val / 400 * 400 ≤ (i 0).val ∧ (i 0).val < (i 0).val / 400 * 400 + 400; omega
  | ⟨1, _⟩ => show win0_5.index ⟨(i 0).val / 400, ht⟩ (1 : Fin 2) * 128 ≤ (i 1).val ∧ (i 1).val < win0_5.index ⟨(i 0).val / 400, ht⟩ (1 : Fin 2) * 128 + 128; rw [f1]; omega

/-- After region 0 its output array holds the first layer of the features, adjacency, weight and bias row the
    region found in its windows' arrays. -/
theorem final0 (c : Dev nD) :
    (dat0 (F := Ideal) V c).arrAt 5 cfg0.N
      = Cert.Gcn.conv (V c main_arg0) (V c main_arg1) (V c main_arg2) (fun j => V c main_v0 (ix2 0 (j 0))) :=
  (dat0 V c).arrAt_eq_of_cover 5 (G0 V c) (fun t _ => flushed0_eq V c t) (cover0)

end Cert.KernelIdeal.Conv

end
-- ==== Proof.Blocks1.lean ====
/-
  What region 1 leaves in its output array, at the ideal values: the second graph-convolution layer (with its residual) of the arrays
  the region was entered with. At grid point `t` the body stores the layer's value for the 400 nodes of panel
  `t` (rows 400·t … 400·t + 399), computed from the adjacency's panel `t`, the whole feature array, the
  nodes' own rows, the weight's two halves and the bias row; the 25 panels tile the 10000 nodes, so the array
  after the last write-back is the layer everywhere.
-/
import proofs.«163987_g44830868636165_cont_8to1_c_628_3_alg».proof.Proof.Region1
import proofs.«163987_g44830868636165_cont_8to1_c_628_3_alg».proof.Proof.Payload
import proofs.«163987_g44830868636165_cont_8to1_c_628_3_alg».proof.Proof.Spec
import Idealize.ShloMosaic.Lib.Pipeline.Value
import Idealize.ShloMosaic.Lib.ValueIdx

set_option maxRecDepth 16384

noncomputable section

open scoped BigOperators

namespace Cert.KernelIdeal.Conv

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offsets of a whole-block access. -/
theorem hz1 : (![0, 0] : Fin 2 → Nat) = fun _ => 0 := funext fun a => by fin_cases a <;> rfl

/-- The windows' block indices at grid point `t`: the adjacency's, the row panel's and the output's blocks are
    the `t`-th along the nodes; the whole feature array, the weight and the bias row are block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored value for node `p` of panel `t` and channel `q`, when its blocks are the adjacency's rows of
    the panel, the whole feature array, the panel's own feature rows, the weight's two halves and the bias row: the
    layer at node `400 t + p`. -/
theorem panel_value1 (t : Nat) (ht : t < 25)
    (A : S10000x10000.Idx → EReal) (H : S10000x128.Idx → EReal) (W : S256x128.Idx → EReal) (B : S1x128.Idx → EReal)
    (a : Vec Ideal S400x10000 .f32) (v : Vec Ideal S10000x128 .f32) (vi : Vec Ideal S400x128 .f32)
    (wlo whi : Vec Ideal S128x128 .f32) (b : Vec Ideal S1x128 .f32)
    (ha : ∀ (p : Fin 400) (k : Fin 10000), a (ix2 p k) = A (ix2 (⟨400 * t + p.val, by omega⟩ : Fin 10000) k))
    (hv : ∀ (k : Fin 10000) (d : Fin 128), v (ix2 k d) = H (ix2 k d))
    (hvi : ∀ (p : Fin 400) (d : Fin 128), vi (ix2 p d) = H (ix2 (⟨400 * t + p.val, by omega⟩ : Fin 10000) d))
    (hlo : ∀ (d : Fin 128) (q : Fin 128), wlo (ix2 d q) = W (ix2 (Cert.Gcn.lo d) q))
    (hhi : ∀ (d : Fin 128) (q : Fin 128), whi (ix2 d q) = W (ix2 (Cert.Gcn.hi d) q))
    (hb : ∀ q : Fin 128, b (ix2 0 q) = B (ix2 0 q))
    (p : Fin 400) (q : Fin 128) :
    k1_pay1 (F := Ideal) a v vi wlo whi b (ix2 p q)
      = Cert.Gcn.convRes H A W (fun j => B (ix2 0 (j 0))) (ix2 (⟨400 * t + p.val, by omega⟩ : Fin 10000) q) := by
  rw [Pay.pay1_apply]
  simp only [ha, hv, hvi, hlo, hhi, hb]
  rfl

/-! ## The windows' blocks at a point, element by element -/

/-- The adjacency's block at point `t` holds rows `400 t … 400 t + 399` of the adjacency. -/
theorem adj_block1 (c : Dev nD) (t : Fin cfg1.N) (p : Fin 400) (k : Fin 10000) (h : 400 * t.val + p.val < 10000) :
    (iblk1 (F := Ideal) V c 0 t : Vec Ideal S400x10000 .f32) (ix2 p k)
      = (V c main_arg1 : S10000x10000.Idx → EReal) (ix2 (⟨400 * t.val + p.val, h⟩ : Fin 10000) k) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 400 + 1 * p.val = 400 * t.val + p.val; rw [e0]; omega
  | ⟨1, _⟩ => show win1_0.index t (1 : Fin 2) * 10000 + 1 * k.val = k.val; rw [e1]; omega

/-- The features' block at any point is the whole first-layer output. -/
theorem feat_block1 (c : Dev nD) (t : Fin cfg1.N) (k : Fin 10000) (d : Fin 128) :
    (iblk1 (F := Ideal) V c 1 t : Vec Ideal S10000x128 .f32) (ix2 k d)
      = (V c main_v1 : S10000x128.Idx → EReal) (ix2 k d) := by
  obtain ⟨-, -, e0, e1, -⟩ := idx_facts1 t
  unfold iblk1
  rw [View.read_apply]
  show V c main_v1 _ = V c main_v1 _
  congr 1
  funext a; apply Fin.ext
  match a with
  | ⟨0, _⟩ => show win1_1.index t (0 : Fin 2) * 10000 + 1 * k.val = k.val; rw [e0]; omega
  | ⟨1, _⟩ => show win1_1.index t (1 : Fin 2) * 128 + 1 * d.val = d.val; rw [e1]; omega

/-- The row panel's block at point `t` holds rows `400 t … 400 t + 399` of the first-layer output. -/
theorem own_block1 (c : Dev nD) (t : Fin cfg1.N) (p : Fin 400) (d : Fin 128) (h : 400 * t.val + p.val < 10000) :
    (iblk1 (F := Ideal) V c 2 t : Vec Ideal S400x128 .f32) (ix2 p d)
      = (V c main_v1 : S10000x128.Idx → EReal) (ix2 (⟨400 * t.val + p.val, h⟩ : Fin 10000) d) := by
  obtain ⟨-, -, -, -, e0, e1, -⟩ := idx_facts1 t
  unfold iblk1
  rw [View.read_apply]
  show V c main_v1 _ = V c main_v1 _
  congr 1
  funext a; apply Fin.ext
  match a with
  | ⟨0, _⟩ => show win1_2.index t (0 : Fin 2) * 400 + 1 * p.val = 400 * t.val + p.val; rw [e0]; omega
  | ⟨1, _⟩ => show win1_2.index t (1 : Fin 2) * 128 + 1 * d.val = d.val; rw [e1]; omega

/-- The weight's block at any point is the whole weight. -/
theorem weight_block1 (c : Dev nD) (t : Fin cfg1.N) (k : Fin 256) (q : Fin 128) :
    (iblk1 (F := Ideal) V c 3 t : Vec Ideal S256x128 .f32) (ix2 k q)
      = (V c main_arg4 : S256x128.Idx → EReal) (ix2 k q) := by
  obtain ⟨-, -, -, -, -, -, e0, e1, -⟩ := idx_facts1 t
  unfold iblk1
  rw [View.read_apply]
  show V c main_arg4 _ = V c main_arg4 _
  congr 1
  funext a; apply Fin.ext
  match a with
  | ⟨0, _⟩ => show win1_3.index t (0 : Fin 2) * 256 + 1 * k.val = k.val; rw [e0]; omega
  | ⟨1, _⟩ => show win1_3.index t (1 : Fin 2) * 128 + 1 * q.val = q.val; rw [e1]; omega

/-- The bias row's block at any point is the bias row. -/
theorem bias_block1 (c : Dev nD) (t : Fin cfg1.N) (q : Fin 128) :
    (iblk1 (F := Ideal) V c 4 t : Vec Ideal S1x128 .f32) (ix2 0 q)
      = (V c main_v2 : S1x128.Idx → EReal) (ix2 0 q) := by
  obtain ⟨-, -, -, -, -, -, -, -, e0, e1, -⟩ := idx_facts1 t
  unfold iblk1
  rw [View.read_apply]
  show V c main_v2 _ = V c main_v2 _
  congr 1
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- A weight block's first 128 rows, read at row `d`: the block at row `d`. -/
theorem wlo_apply1 (w : Vec Ideal S256x128 .f32) (d : Fin 128) (q : Fin 128) :
    (View.ld w r1_wlo : Vec Ideal S128x128 .f32) (ix2 d q) = w (ix2 (Cert.Gcn.lo d) q) := by
  show w (r1_wlo.idx (ix2 d q)) = _
  congr 1; funext a; apply Fin.ext
  match a with
  | ⟨0, _⟩ => show 0 + 1 * d.val = d.val; omega
  | ⟨1, _⟩ => show 0 + 1 * q.val = q.val; omega

/-- A weight block's last 128 rows, read at row `d`: the block at row `128 + d`. -/
theorem whi_apply1 (w : Vec Ideal S256x128 .f32) (d : Fin 128) (q : Fin 128) :
    (View.ld w r1_whi : Vec Ideal S128x128 .f32) (ix2 d q) = w (ix2 (Cert.Gcn.hi d) q) := by
  show w (r1_whi.idx (ix2 d q)) = _
  congr 1; funext a; apply Fin.ext
  match a with
  | ⟨0, _⟩ => show 128 + 1 * d.val = 128 + d.val; omega
  | ⟨1, _⟩ => show 0 + 1 * q.val = q.val; omega

/-! ## What a point writes back -/

/-- Point `t` writes back block `t` of the layer. -/
theorem flushed1_eq (c : Dev nD) (t : Fin cfg1.N) :
    (dat1 (F := Ideal) V c).flushed 5 t = ((cfg1.win 5).blk t).view.read (Elt Ideal)
      (Cert.Gcn.convRes (V c main_v1) (V c main_arg1) (V c main_arg4) (fun j => V c main_v2 (ix2 0 (j 0)))) := by
  show (cfg1.win 5).cut (grid1.coords t) ((dat1 V c).after 5 t) = _
  rw [after1_5]
  unfold out1_5
  rw [View.canon_unit_zero hz1]
  simp only [View.ld_unit_zero (S := S400x10000) hz1, View.ld_unit_zero (S := S10000x128) hz1, View.ld_unit_zero (S := S400x128) hz1, View.ld_unit_zero (S := S1x128) hz1]
  have hN : cfg1.N = 25 := Gen.N_1
  have ht : t.val < 25 := by have := t.isLt; omega
  obtain ⟨-, -, -, -, -, -, -, -, -, -, e0, e1⟩ := idx_facts1 t
  funext y
  obtain ⟨p, q, rfl⟩ : ∃ (p : Fin 400) (q : Fin 128), y = (ix2 p q : S400x128.Idx) := ⟨y 0, y 1, eq_ix2 (n0 := 400) (n1 := 128) y⟩
  have hp : 400 * t.val + p.val < 10000 := by have := p.isLt; omega
  refine Eq.trans (panel_value1 t.val ht (V c main_arg1) (V c main_v1) (V c main_arg4) (V c main_v2)
    (iblk1 V c 0 t) (iblk1 V c 1 t) (iblk1 V c 2 t) (View.ld (iblk1 V c 3 t) r1_wlo) (View.ld (iblk1 V c 3 t) r1_whi) (iblk1 V c 4 t)
    (fun p k => adj_block1 V c t p k _) (fun k d => feat_block1 V c t k d) (fun p d => own_block1 V c t p d _)
    (fun d q => (wlo_apply1 (iblk1 V c 3 t) d q).trans (weight_block1 V c t _ q))
    (fun d q => (whi_apply1 (iblk1 V c 3 t) d q).trans (weight_block1 V c t _ q))
    (fun q => bias_block1 V c t q) p q) ?_
  rw [View.read_apply]
  show Cert.Gcn.convRes (V c main_v1) (V c main_arg1) (V c main_arg4) (fun j => V c main_v2 (ix2 0 (j 0))) _
    = Cert.Gcn.convRes (V c main_v1) (V c main_arg1) (V c main_arg4) (fun j => V c main_v2 (ix2 0 (j 0))) _
  congr 1
  funext a; apply Fin.ext
  match a with
  | ⟨0, _⟩ => show 400 * t.val + p.val = win1_5.index t (0 : Fin 2) * 400 + 1 * p.val; rw [e0]; omega
  | ⟨1, _⟩ => show q.val = win1_5.index t (1 : Fin 2) * 128 + 1 * q.val; rw [e1]; omega

/-! ## The panels tile the nodes -/

/-- An index of the output array is in point `t`'s block iff each coordinate is in the block's range on its axis. -/
theorem mem_blk1 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v3).slice (win1_5.rect t)).set ↔ _
  rw [View.set_slice_whole, Rect.mem_set_unit]
  exact Iff.rfl

/-- Node `n` is in the panel of point `n / 400`, which writes back. -/
theorem cover1 (i : S10000x128.Idx) :
    ∃ t : Fin cfg1.N, (cfg1.win 5).flush t = true ∧ i ∈ ((cfg1.win 5).blk t).view.set := by
  have hN : cfg1.N = 25 := Gen.N_1
  have hi0 : (i 0).val < 10000 := (i 0).isLt
  have hi1 : (i 1).val < 128 := (i 1).isLt
  obtain ⟨t, ht⟩ : ∃ t : Fin cfg1.N, t.val = (i 0).val / 400 := ⟨⟨(i 0).val / 400, by omega⟩, rfl⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 400 ≤ (i 0).val ∧ (i 0).val < win1_5.index t (0 : Fin 2) * 400 + 400; rw [e0, ht]; omega
  | ⟨1, _⟩ => show win1_5.index t (1 : Fin 2) * 128 ≤ (i 1).val ∧ (i 1).val < win1_5.index t (1 : Fin 2) * 128 + 128; rw [e1]; omega

/-! ## The array after the region -/

/-- After region 1 its output array holds the second layer, with its residual, of the first layer's output, the adjacency, the weight and the bias row the
    region found in its windows' arrays. -/
theorem final1 (c : Dev nD) :
    (dat1 (F := Ideal) V c).arrAt 5 cfg1.N
      = Cert.Gcn.convRes (V c main_v1) (V c main_arg1) (V c main_arg4) (fun j => V c main_v2 (ix2 0 (j 0))) := by
  exact (dat1 (F := Ideal) V c).arrAt_eq_of_cover 5
    (Cert.Gcn.convRes (V c main_v1) (V c main_arg1) (V c main_arg4) (fun j => V c main_v2 (ix2 0 (j 0))))
    (fun t _ => flushed1_eq V c t) (fun i => cover1 i)

end Cert.KernelIdeal.Conv

end
-- ==== Proof.Value.lean ====
/-
  The idealized kernel program's result as one function of its arguments. After the run the result buffer holds
  what the second region's write-backs leave: the second layer (with its residual) of what that region found —
  the first region's output, the adjacency, the second weight and the second bias as a row —, and the first
  region's output is the first layer of the features, the adjacency, the first weight and the first bias as a
  row. No host operation and no region writes an argument, so each is found as launched; a bias reshaped from
  [128] to [1, 128] reads, at row 0 and channel `q`, the bias at `q`.
-/
import proofs.«163987_g44830868636165_cont_8to1_c_628_3_alg».proof.Proof.Run
import proofs.«163987_g44830868636165_cont_8to1_c_628_3_alg».proof.Proof.Blocks0
import proofs.«163987_g44830868636165_cont_8to1_c_628_3_alg».proof.Proof.Blocks1
import Idealize.ShloMosaic.Lib.Pipeline.Value
import Idealize.ShloMosaic.Lib.ValueIdx

set_option maxRecDepth 16384

noncomputable section

namespace Cert.KernelIdeal.Conv

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- A bias reshaped to a row, read at channel `q`. -/
theorem row_apply (x : S128.Idx → EReal) (q : Fin 128) :
    shapeCast S1x128 x shapeCasts_S128_S1x128 (ix2 0 q) = x (ix1 q) :=
  shapeCast_apply x shapeCasts_S128_S1x128 (ix2 0 q) (ix1 q) (by
    rw [Shape.rowMajor_val_one, Shape.rowMajor_val_two]
    show q.val = 0 * 128 + q.val
    omega)

/-- Region 0 finds the first bias as a row. -/
theorem bias1 (c : Dev nD) (q : Fin 128) : B1 m c main_v0 (ix2 0 q) = m ((c : Thread nD τ).loc main_arg3) (ix1 q) := by
  have e : (B1 m c main_v0 : S1x128.Idx → EReal) = shapeCast S1x128 (m ((c : Thread nD τ).loc main_arg3)) shapeCasts_S128_S1x128 := by
    show StableHlo.after hostOps0 (W0 m c) (Proc.devRef .tc main_v0) = _
    after_results; rfl
  rw [e]; exact row_apply _ q

/-- Region 0 finds the features, the adjacency and the first weight as launched. -/
theorem B1_arg (c : Dev nD) (b : Ref sig .tc) (h : b ∉ hostOps0_W) : B1 m c b = m ((c : Thread nD τ).loc b) :=
  (StableHlo.after_of_writes_sub hostOps0 _ hostOps0_writes h).trans rfl

/-- Region 1 finds every buffer but the second bias's row as region 0 left it. -/
theorem B3_of (c : Dev nD) (b : Ref sig .tc) (h : b ∉ hostOps1_W) : B3 m c b = B2 m c b :=
  StableHlo.after_of_writes_sub hostOps1 _ hostOps1_writes h

/-- Region 1 finds the adjacency and the second weight as launched. -/
theorem B3_arg (c : Dev nD) (b : Ref sig .tc) (h0 : b ∉ hostOps0_W) (h1 : b ≠ main_v1) (h2 : b ∉ hostOps1_W) :
    B3 m c b = m ((c : Thread nD τ).loc b) :=
  (B3_of m c b h2).trans <| (W2_of_ne m c b h1).trans (B1_arg m c b h0)

/-- Region 1 finds the second bias as a row. -/
theorem bias2 (c : Dev nD) (q : Fin 128) : B3 m c main_v2 (ix2 0 q) = m ((c : Thread nD τ).loc main_arg5) (ix1 q) := by
  have e : (B3 m c main_v2 : S1x128.Idx → EReal) = shapeCast S1x128 (W2 m c main_arg5) shapeCasts_S128_S1x128 := by
    show StableHlo.after hostOps1 (W2 m c) (Proc.devRef .tc main_v2) = _
    after_results; rfl
  rw [e, row_apply]
  exact congrFun ((W2_of_ne m c main_arg5 (by decide)).trans (B1_arg m c main_arg5 (by decide))) (ix1 q)

/-- The first layer's output, as region 1 finds it. -/
theorem hidden (c : Dev nD) :
    B3 m c main_v1 = Cert.Gcn.conv (m ((c : Thread nD τ).loc main_arg0)) (m ((c : Thread nD τ).loc main_arg1))
      (m ((c : Thread nD τ).loc main_arg2)) (m ((c : Thread nD τ).loc main_arg3)) := by
  rw [B3_of m c main_v1 (by decide), W2_out, final0, B1_arg m c main_arg0 (by decide), B1_arg m c main_arg1 (by decide),
    B1_arg m c main_arg2 (by decide)]
  refine congrArg (Cert.Gcn.conv _ _ _) (funext fun j => ?_)
  exact (bias1 m c (j 0)).trans (congrArg (m ((c : Thread nD τ).loc main_arg3)) (eq_ix1 j).symm)

/-- THE VALUE: after the run the result buffer holds the two-layer network of the six arguments. -/
theorem result (c : Dev nD) :
    B4 m c main_v3 = Cert.Gcn.out (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  rw [W4_out, final1, hidden, B3_arg m c main_arg1 (by decide) (by decide) (by decide),
    B3_arg m c main_arg4 (by decide) (by decide) (by decide)]
  unfold Cert.Gcn.out
  refine congrArg (Cert.Gcn.convRes _ _ _) (funext fun j => ?_)
  exact (bias2 m c (j 0)).trans (congrArg (m ((c : Thread nD τ).loc main_arg5)) (eq_ix1 j).symm)

end Cert.KernelIdeal.Conv

end
-- ==== Proof.RefSpec.lean ====
/-
  The reference program's result, read one stage at a time at the ideal values, is the two-layer graph
  convolution `Cert.Gcn.out` of its six arguments: each `dot_general` a finite sum, the concatenation along
  the channel axis read at a coordinate (its first 128 channels the node's own features, its last 128 the
  aggregate), the sum over 256 contraction indices split into its two halves, relu a `max` with the zero word.
-/
import proofs.«163987_g44830868636165_cont_8to1_c_628_3_alg».proof.Proof.Gen.ReferenceIdeal.Read
import proofs.«163987_g44830868636165_cont_8to1_c_628_3_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The channel-axis concatenation at a coordinate -/

section Cat
variable {α : Type}

/-- Two feature arrays joined along the channel axis, read at a channel of the first half: the first array
    at that channel. -/
theorem cat_lo (x y : S10000x128.Idx → α) (h : Shape.Concatenates [S10000x128, S10000x128] S10000x256 1)
    (n : Fin 10000) (d : Fin 128) :
    concatenate S10000x256 1 [⟨S10000x128, x⟩, ⟨S10000x128, y⟩] h (ix2 n (Cert.Gcn.lo d)) = x (ix2 n d) :=
  concatenate_pair_apply_left 1 x y h _ rfl _ (fun b => by
    match b with
    | ⟨0, _⟩ => rfl
    | ⟨1, _⟩ => rfl)

/-- The same array read at a channel of the second half: the second array at that channel less 128. -/
theorem cat_hi (x y : S10000x128.Idx → α) (h : Shape.Concatenates [S10000x128, S10000x128] S10000x256 1)
    (n : Fin 10000) (d : Fin 128) :
    concatenate S10000x256 1 [⟨S10000x128, x⟩, ⟨S10000x128, y⟩] h (ix2 n (Cert.Gcn.hi d)) = y (ix2 n d) :=
  concatenate_pair_apply_right 1 x y h _ rfl rfl _
    (fun b hb => by
      match b with
      | ⟨0, _⟩ => rfl
      | ⟨1, _⟩ => exact absurd rfl hb)
    (by show d.val + 128 = 128 + d.val; omega)

end Cat

/-! ## The stages' operand indices, by coordinates

At the result index `(n, f)` a product over `k` reads its left operand at `(n, k)` and its right operand at
`(k, f)`; the bias, broadcast along the nodes, is read at `f`. -/

theorem lidx0 (n : Fin 10000) (d : Fin 128) (k : Fin 10000) : Read.lidx_main_v0 (ix2 n d) k = ix2 n k :=
  funext fun a => Fin.ext (by match a with | ⟨0, _⟩ => rfl | ⟨1, _⟩ => rfl)
theorem ridx0 (n : Fin 10000) (d : Fin 128) (k : Fin 10000) : Read.ridx_main_v0 (ix2 n d) k = ix2 k d :=
  funext fun a => Fin.ext (by match a with | ⟨0, _⟩ => rfl | ⟨1, _⟩ => rfl)
theorem lidx2 (n : Fin 10000) (f : Fin 128) (k : Fin 256) : Read.lidx_main_v2 (ix2 n f) k = ix2 n k :=
  funext fun a => Fin.ext (by match a with | ⟨0, _⟩ => rfl | ⟨1, _⟩ => rfl)
theorem ridx2 (n : Fin 10000) (f : Fin 128) (k : Fin 256) : Read.ridx_main_v2 (ix2 n f) k = ix2 k f :=
  funext fun a => Fin.ext (by match a with | ⟨0, _⟩ => rfl | ⟨1, _⟩ => rfl)
theorem bidx1 (n : Fin 10000) (f : Fin 128) : Read.idx_main_v3 (Read.idx_main_v4 (ix2 n f)) = ix1 f :=
  funext fun a => Fin.ext (by match a with | ⟨0, _⟩ => rfl)
theorem lidx7 (n : Fin 10000) (d : Fin 128) (k : Fin 10000) : Read.lidx_main_v7 (ix2 n d) k = ix2 n k :=
  funext fun a => Fin.ext (by match a with | ⟨0, _⟩ => rfl | ⟨1, _⟩ => rfl)
theorem ridx7 (n : Fin 10000) (d : Fin 128) (k : Fin 10000) : Read.ridx_main_v7 (ix2 n d) k = ix2 k d :=
  funext fun a => Fin.ext (by match a with | ⟨0, _⟩ => rfl | ⟨1, _⟩ => rfl)
theorem lidx9 (n : Fin 10000) (f : Fin 128) (k : Fin 256) : Read.lidx_main_v9 (ix2 n f) k = ix2 n k :=
  funext fun a => Fin.ext (by match a with | ⟨0, _⟩ => rfl | ⟨1, _⟩ => rfl)
theorem ridx9 (n : Fin 10000) (f : Fin 128) (k : Fin 256) : Read.ridx_main_v9 (ix2 n f) k = ix2 k f :=
  funext fun a => Fin.ext (by match a with | ⟨0, _⟩ => rfl | ⟨1, _⟩ => rfl)
theorem bidx2 (n : Fin 10000) (f : Fin 128) : Read.idx_main_v10 (Read.idx_main_v11 (ix2 n f)) = ix1 f :=
  funext fun a => Fin.ext (by match a with | ⟨0, _⟩ => rfl)

section Layers
variable (x0 : (⟨S10000x128, .f32⟩ : BufTy).Contents (Elt Ideal)) (x1 : (⟨S10000x10000, .f32⟩ : BufTy).Contents (Elt Ideal))
    (x2 : (⟨S256x128, .f32⟩ : BufTy).Contents (Elt Ideal)) (x3 : (⟨S128, .f32⟩ : BufTy).Contents (Elt Ideal))

/-! ## The first layer -/

/-- The first layer's joined array at a channel of its first half: the input features. -/
theorem v1_lo (n : Fin 10000) (d : Fin 128) :
    Read.val_main_v1 (F := Ideal) x0 x1 (ix2 n (Cert.Gcn.lo d)) = x0 (ix2 n d) :=
  cat_lo x0 (Read.val_main_v0 (F := Ideal) x0 x1) _ n d

/-- The first layer's joined array at a channel of its second half: the aggregate of the input features. -/
theorem v1_hi (n : Fin 10000) (d : Fin 128) :
    Read.val_main_v1 (F := Ideal) x0 x1 (ix2 n (Cert.Gcn.hi d)) = Cert.Gcn.agg x1 x0 n d := by
  refine (cat_hi x0 (Read.val_main_v0 (F := Ideal) x0 x1) _ n d).trans ?_
  rw [Read.val_main_v0_apply]
  unfold Cert.Gcn.agg
  refine Finset.sum_congr rfl fun k _ => ?_
  rw [lidx0, ridx0]

/-- The first relu's result is one layer of the specification on the input features. -/
theorem layer1 : Read.val_main_v6 (F := Ideal) x0 x1 x2 x3 = Cert.Gcn.conv x0 x1 x2 x3 := by
  funext i
  obtain ⟨n, f, rfl⟩ : ∃ (n : Fin 10000) (f : Fin 128), i = ix2 n f := ⟨i 0, i 1, eq_ix2 i⟩
  rw [Read.val_main_v6_apply, Read.val_main_v5_apply, Read.val_main_v2_apply, Read.val_main_v4_apply, Read.val_main_v3_apply,
    Read.val_main_call0_v0_apply, Read.val_main_call0_cst_apply, Cert.Gcn.sum_halves]
  simp only [lidx2, ridx2, bidx1, v1_lo, v1_hi, Ideal.addf_def, Ideal.maximumf_def, Ideal.ofBits_def]
  rfl

/-! ## The second layer, over the first layer's result -/

/-- The second layer's joined array at a channel of its first half: the first layer's result. -/
theorem v8_lo (n : Fin 10000) (d : Fin 128) :
    Read.val_main_v8 (F := Ideal) x0 x1 x2 x3 (ix2 n (Cert.Gcn.lo d)) = Read.val_main_v6 (F := Ideal) x0 x1 x2 x3 (ix2 n d) :=
  cat_lo (Read.val_main_v6 (F := Ideal) x0 x1 x2 x3) (Read.val_main_v7 (F := Ideal) x0 x1 x2 x3) _ n d

/-- The second layer's joined array at a channel of its second half: the aggregate of the first layer's result. -/
theorem v8_hi (n : Fin 10000) (d : Fin 128) :
    Read.val_main_v8 (F := Ideal) x0 x1 x2 x3 (ix2 n (Cert.Gcn.hi d))
      = Cert.Gcn.agg x1 (Read.val_main_v6 (F := Ideal) x0 x1 x2 x3) n d := by
  refine (cat_hi (Read.val_main_v6 (F := Ideal) x0 x1 x2 x3) (Read.val_main_v7 (F := Ideal) x0 x1 x2 x3) _ n d).trans ?_
  rw [Read.val_main_v7_apply]
  generalize Read.val_main_v6 (F := Ideal) x0 x1 x2 x3 = h
  unfold Cert.Gcn.agg
  refine Finset.sum_congr rfl fun k _ => ?_
  rw [lidx7, ridx7]

end Layers

/-! ## The whole network -/

/-- The reference's last stage is the network of the specification, index by index. -/
theorem ref_eq (x0 : (⟨S10000x128, .f32⟩ : BufTy).Contents (Elt Ideal)) (x1 : (⟨S10000x10000, .f32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) :
    Cert.ReferenceIdeal.Read.val_main_v15 (F := Ideal) x0 x1 x2 x3 x4 x5 = Cert.Gcn.out x0 x1 x2 x3 x4 x5 := by
  funext i
  obtain ⟨n, f, rfl⟩ : ∃ (n : Fin 10000) (f : Fin 128), i = ix2 n f := ⟨i 0, i 1, eq_ix2 i⟩
  rw [Read.val_main_v15_apply, Read.val_main_v14_apply, Read.val_main_v13_apply, Read.val_main_v12_apply, Read.val_main_v9_apply,
    Read.val_main_v11_apply, Read.val_main_v10_apply, Read.val_main_call1_v0_apply, Read.val_main_call1_cst_apply,
    Read.val_main_call2_v0_apply, Read.val_main_call2_cst_apply, Cert.Gcn.sum_halves]
  simp only [lidx9, ridx9, bidx2, v8_lo, v8_hi, Ideal.addf_def, Ideal.maximumf_def, Ideal.ofBits_def]
  rw [layer1]
  rfl

end Cert.ReferenceIdeal.RefValue

end
-- ==== Proof.lean ====
/-
  The certificate's claim. Both programs compute, on the extended reals, two graph-convolution layers over a
  dense adjacency matrix, relu( v · W[0:128] + (A · v) · W[128:256] + b ), the second with a residual. The kernel
  program runs each layer as one pallas_call over 25 row panels, multiplying the two halves of the weight
  separately and adding; the reference concatenates the features with their aggregate and multiplies once. The
  two agree because a sum over 256 contraction indices is the sum over its first 128 plus the sum over its last
  128: associativity and commutativity of addition, which hold on the extended reals without any finiteness
  (the precondition is never opened).
  * The frames of the two kernel programs (word-level and idealized): every weakly fair execution terminates,
    nothing faults, the arguments end as launched — from the run of @main's four items.
  * The reference's frame: its run with the result dropped.
  * `preserves`: the ideal pass rewrote nothing.
  * `algebraic`: the kernel program's result buffer ends at `Cert.Gcn.out` of the arguments (the regions'
    write-backs read block by block), the reference's last stage is the same function (read stage by stage).
-/
import proofs.«163987_g44830868636165_cont_8to1_c_628_3_alg».proof.Defs
import proofs.«163987_g44830868636165_cont_8to1_c_628_3_alg».proof.Proof.Gen.Kernel
import proofs.«163987_g44830868636165_cont_8to1_c_628_3_alg».proof.Proof.Gen.KernelIdeal
import proofs.«163987_g44830868636165_cont_8to1_c_628_3_alg».proof.Proof.Gen.ReferenceIdeal
import proofs.«163987_g44830868636165_cont_8to1_c_628_3_alg».proof.Proof.Gen.Pre_finite_inputs
import proofs.«163987_g44830868636165_cont_8to1_c_628_3_alg».proof.Proof.Gen.ReferenceIdeal.Run
import proofs.«163987_g44830868636165_cont_8to1_c_628_3_alg».proof.Proof.Gen.ReferenceIdeal.Read
import proofs.«163987_g44830868636165_cont_8to1_c_628_3_alg».proof.Proof.KRun
import proofs.«163987_g44830868636165_cont_8to1_c_628_3_alg».proof.Proof.Run
import proofs.«163987_g44830868636165_cont_8to1_c_628_3_alg».proof.Proof.Value
import proofs.«163987_g44830868636165_cont_8to1_c_628_3_alg».proof.Proof.RefSpec

noncomputable section

namespace Cert.Proof

open Idealize.ShloMosaic Idealize.ShloMosaic.TcCoe Idealize.SL.Sem

theorem frame_k : Cert.frame_Kernel := fun m ρ _ => Cert.Kernel.Conv.frame (F := Bits) m ρ

theorem frame_ki : Cert.frame_KernelIdeal := fun m ρ _ => Cert.KernelIdeal.Conv.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

open Cert.KernelIdeal in
/-- From memories agreeing on the arguments both idealized programs end with the result at the two-layer network
    of the arguments, and the arguments unchanged. -/
theorem algebraic : Cert.algebraic_KernelIdeal_ReferenceIdeal := by
  intro m ρ m' ρ' _ hagree
  refine ⟨fun c => Cert.Gcn.out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)), ?_, ?_⟩
  · refine (θ_run Cert.KernelIdeal.defs _ _).mono (fun r h c => ?_) (Cert.KernelIdeal.Conv.run_all (F := Ideal) m ρ)
    exact ⟨(h c _ (Conv.mem_uc main_v3 (by decide))).trans (Conv.result m c),
      (h c _ (Conv.mem_uc main_arg0 (by decide))).trans (Conv.W4_kept m c main_arg0 (by decide) (by decide) (by decide) (by decide)),
      (h c _ (Conv.mem_uc main_arg1 (by decide))).trans (Conv.W4_kept m c main_arg1 (by decide) (by decide) (by decide) (by decide)),
      (h c _ (Conv.mem_uc main_arg2 (by decide))).trans (Conv.W4_kept m c main_arg2 (by decide) (by decide) (by decide) (by decide)),
      (h c _ (Conv.mem_uc main_arg3 (by decide))).trans (Conv.W4_kept m c main_arg3 (by decide) (by decide) (by decide) (by decide)),
      (h c _ (Conv.mem_uc main_arg4 (by decide))).trans (Conv.W4_kept m c main_arg4 (by decide) (by decide) (by decide) (by decide)),
      (h c _ (Conv.mem_uc main_arg5 (by decide))).trans (Conv.W4_kept m c main_arg5 (by decide) (by decide) (by decide) (by decide))⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
